-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4 : Shape := ⟨2, ![16384, 4]⟩
abbrev S1 : Shape := ⟨1, ![1]⟩
abbrev S38279x1 : Shape := ⟨2, ![38279, 1]⟩
abbrev S38279x128 : Shape := ⟨2, ![38279, 128]⟩
abbrev S512x2048 : Shape := ⟨2, ![512, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S_ : Shape := ⟨0, ![]⟩

class Facts : Prop where
  bcast_S_S16384x4 : S_.BroadcastsInDim S16384x4 (![] : Fin 0 → Fin S16384x4.rank)
  reducesTo_S16384x4_S_d0_1 : S16384x4.ReducesTo [0, 1] S_
  h_S_ : 0 < S_.numel
  bcast_S_S1 : S_.BroadcastsInDim S1 (![] : Fin 0 → Fin S1.rank)
  reducesTo_S1_S_d0 : S1.ReducesTo [0] S_
  bcast_S_S38279x1 : S_.BroadcastsInDim S38279x1 (![] : Fin 0 → Fin S38279x1.rank)
  reducesTo_S38279x1_S_d0_1 : S38279x1.ReducesTo [0, 1] S_
  bcast_S_S38279x128 : S_.BroadcastsInDim S38279x128 (![] : Fin 0 → Fin S38279x128.rank)
  reducesTo_S38279x128_S_d0_1 : S38279x128.ReducesTo [0, 1] S_
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_

variable [Facts]

def fn_part3 {F : FTy → Type} [FloatOps F] (main_arg11 : FVec F S1 .f32) (main_v48 : IVec S_ 1) (main_v49 : FVec F S512x1 .f32) (main_v50 : FVec F S512x1 .f32) : IVec S_ 1 :=
  let main_v51 : IVec S512x1 1 := cmpf .olt main_v49 main_v50
  let main_c_19 : IVec S_ 1 := constantI S_ 1 1#1
  let main_v52 : IVec S_ 1 := (fun x v => Host.reduce IntOp.andi x v reducesTo_S512x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S1024 .f32) (main_arg8 : FVec F S1024x512 .f32) (main_arg9 : FVec F S512 .f32) (main_arg10 : FVec F S512x1 .f32) (main_arg11 : FVec F S1 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x512 .f32 := Host.absf main_arg8
  let main_cst_14 : FVec F S_ .f32 := constant S_ .f32 0x7F800000#32
  let main_v40 : FVec F S1024x512 .f32 := broadcastInDim S1024x512 ![] bcast_S_S1024x512 main_cst_14
  let main_v41 : IVec S1024x512 1 := cmpf .olt main_v39 main_v40
  let main_c_15 : IVec S_ 1 := constantI S_ 1 1#1
  let main_v42 : IVec S_ 1 := (fun x v => Host.reduce IntOp.andi x v reducesTo_S1024x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x1 .f32 := Host.absf main_arg10
  let main_cst_18 : FVec F S_ .f32 := constant S_ .f32 0x7F800000#32
  let main_v50 : FVec F S512x1 .f32 := broadcastInDim S512x1 ![] bcast_S_S512x1 main_cst_18
  fn_part3 (F := F) main_arg11 main_v48 main_v49 main_v50

def fn_part1 {F : FTy → Type} [FloatOps F] (main_arg4 : FVec F S512x2048 .f32) (main_arg5 : FVec F S2048 .f32) (main_arg6 : FVec F S2048x1024 .f32) (main_arg7 : FVec F S1024 .f32) (main_arg8 : FVec F S1024x512 .f32) (main_arg9 : FVec F S512 .f32) (main_arg10 : FVec F S512x1 .f32) (main_arg11 : FVec F S1 .f32) (main_v13 : IVec S_ 1) (main_v16 : IVec S38279x128 1) : IVec S_ 1 :=
  let main_c_5 : IVec S_ 1 := constantI S_ 1 1#1
  let main_v17 : IVec S_ 1 := (fun x v => Host.reduce IntOp.andi x v reducesTo_S38279x128_S_d0_1 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x4 .f32) (main_arg1 : FVec F S1 .f32) (main_arg2 : FVec F S38279x1 .f32) (main_arg3 : FVec F S38279x128 .f32) (main_arg4 : FVec F S512x2048 .f32) (main_arg5 : FVec F S2048 .f32) (main_arg6 : FVec F S2048x1024 .f32) (main_arg7 : FVec F S1024 .f32) (main_arg8 : FVec F S1024x512 .f32) (main_arg9 : FVec F S512 .f32) (main_arg10 : FVec F S512x1 .f32) (main_arg11 : FVec F S1 .f32) : IVec S_ 1 :=
  let main_v0 : FVec F S16384x4 .f32 := Host.absf main_arg0
  let main_cst : FVec F S_ .f32 := constant S_ .f32 0x7F800000#32
  let main_v1 : FVec F S16384x4 .f32 := broadcastInDim S16384x4 ![] bcast_S_S16384x4 main_cst
  let main_v2 : IVec S16384x4 1 := cmpf .olt main_v0 main_v1
  let main_c : IVec S_ 1 := constantI S_ 1 1#1
  let main_v3 : IVec S_ 1 := (fun x v => Host.reduce IntOp.andi x v reducesTo_S16384x4_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S38279x1 .f32 := Host.absf main_arg2
  let main_cst_2 : FVec F S_ .f32 := constant S_ .f32 0x7F800000#32
  let main_v10 : FVec F S38279x1 .f32 := broadcastInDim S38279x1 ![] bcast_S_S38279x1 main_cst_2
  let main_v11 : IVec S38279x1 1 := cmpf .olt main_v9 main_v10
  let main_c_3 : IVec S_ 1 := constantI S_ 1 1#1
  let main_v12 : IVec S_ 1 := (fun x v => Host.reduce IntOp.andi x v reducesTo_S38279x1_S_d0_1 h_S_) main_v11 main_c_3
  let main_v13 : IVec S_ 1 := andi main_v8 main_v12
  let main_v14 : FVec F S38279x128 .f32 := Host.absf main_arg3
  let main_cst_4 : FVec F S_ .f32 := constant S_ .f32 0x7F800000#32
  let main_v15 : FVec F S38279x128 .f32 := broadcastInDim S38279x128 ![] bcast_S_S38279x128 main_cst_4
  let main_v16 : IVec S38279x128 1 := cmpf .olt main_v14 main_v15
  fn_part1 (F := F) main_arg4 main_arg5 main_arg6 main_arg7 main_arg8 main_arg9 main_arg10 main_arg11 main_v13 main_v16
-- ==== Kernel.lean ====
abbrev S16384x4 : Shape := ⟨2, ![16384, 4]⟩
abbrev S1 : Shape := ⟨1, ![1]⟩
abbrev S38279x1 : Shape := ⟨2, ![38279, 1]⟩
abbrev S38279x128 : Shape := ⟨2, ![38279, 128]⟩
abbrev S512x2048 : Shape := ⟨2, ![512, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S4 : Shape := ⟨1, ![4]⟩
abbrev S_ : Shape := ⟨0, ![]⟩
abbrev S16384x4x1 : Shape := ⟨3, ![16384, 4, 1]⟩
abbrev S16384x4x128 : Shape := ⟨3, ![16384, 4, 128]⟩
abbrev S16384x512 : Shape := ⟨2, ![16384, 512]⟩
abbrev S1x4 : Shape := ⟨2, ![1, 4]⟩
abbrev S16384x4x2 : Shape := ⟨3, ![16384, 4, 2]⟩
abbrev S16384 : Shape := ⟨1, ![16384]⟩
abbrev S16384x1 : Shape := ⟨2, ![16384, 1]⟩
abbrev S1x2048 : Shape := ⟨2, ![1, 2048]⟩
abbrev S1x1024 : Shape := ⟨2, ![1, 1024]⟩
abbrev S1x512 : Shape := ⟨2, ![1, 512]⟩
abbrev S1x1 : Shape := ⟨2, ![1, 1]⟩
abbrev S1024x1 : Shape := ⟨2, ![1024, 1]⟩
abbrev S1024x2048 : Shape := ⟨2, ![1024, 2048]⟩
abbrev S1024x1024 : Shape := ⟨2, ![1024, 1024]⟩

abbrev nBuf : Space → Nat
  | .hbm => 70
  | .vmem => 14
  | .smem => 0
  | _ => 0

abbrev bufTy : (tb : Table) → Fin (tcTables nBuf tb) → BufTy
  | .hbm, ⟨0, _⟩ => ⟨S16384x4, .f32⟩
  | .hbm, ⟨1, _⟩ => ⟨S1, .f32⟩
  | .hbm, ⟨2, _⟩ => ⟨S38279x1, .f32⟩
  | .hbm, ⟨3, _⟩ => ⟨S38279x128, .f32⟩
  | .hbm, ⟨4, _⟩ => ⟨S512x2048, .f32⟩
  | .hbm, ⟨5, _⟩ => ⟨S2048, .f32⟩
  | .hbm, ⟨6, _⟩ => ⟨S2048x1024, .f32⟩
  | .hbm, ⟨7, _⟩ => ⟨S1024, .f32⟩
  | .hbm, ⟨8, _⟩ => ⟨S1024x512, .f32⟩
  | .hbm, ⟨9, _⟩ => ⟨S512, .f32⟩
  | .hbm, ⟨10, _⟩ => ⟨S512x1, .f32⟩
  | .hbm, ⟨11, _⟩ => ⟨S1, .f32⟩
  | .hbm, ⟨12, _⟩ => ⟨S4, .i32⟩
  | .hbm, ⟨13, _⟩ => ⟨S16384x4, .i32⟩
  | .hbm, ⟨14, _⟩ => ⟨S_, .i32⟩
  | .hbm, ⟨15, _⟩ => ⟨S16384x4, .i32⟩
  | .hbm, ⟨16, _⟩ => ⟨S16384x4, .i1⟩
  | .hbm, ⟨17, _⟩ => ⟨S_, .i32⟩
  | .hbm, ⟨18, _⟩ => ⟨S16384x4, .i32⟩
  | .hbm, ⟨19, _⟩ => ⟨S16384x4, .i32⟩
  | .hbm, ⟨20, _⟩ => ⟨S16384x4, .i32⟩
  | .hbm, ⟨21, _⟩ => ⟨S16384x4x1, .i32⟩
  | .hbm, ⟨22, _⟩ => ⟨S16384x4x128, .f32⟩
  | .hbm, ⟨23, _⟩ => ⟨S16384x512, .f32⟩
  | .hbm, ⟨24, _⟩ => ⟨S1x4, .i32⟩
  | .hbm, ⟨25, _⟩ => ⟨S16384x4, .i32⟩
  | .hbm, ⟨26, _⟩ => ⟨S16384x4, .i32⟩
  | .hbm, ⟨27, _⟩ => ⟨S_, .i32⟩
  | .hbm, ⟨28, _⟩ => ⟨S16384x4, .i32⟩
  | .hbm, ⟨29, _⟩ => ⟨S16384x4, .i1⟩
  | .hbm, ⟨30, _⟩ => ⟨S_, .i32⟩
  | .hbm, ⟨31, _⟩ => ⟨S16384x4, .i32⟩
  | .hbm, ⟨32, _⟩ => ⟨S16384x4, .i32⟩
  | .hbm, ⟨33, _⟩ => ⟨S16384x4, .i32⟩
  | .hbm, ⟨34, _⟩ => ⟨S_, .i32⟩
  | .hbm, ⟨35, _⟩ => ⟨S16384x4, .i32⟩
  | .hbm, ⟨36, _⟩ => ⟨S16384x4, .i32⟩
  | .hbm, ⟨37, _⟩ => ⟨S16384x4x1, .i32⟩
  | .hbm, ⟨38, _⟩ => ⟨S16384x4x1, .i32⟩
  | .hbm, ⟨39, _⟩ => ⟨S16384x4x2, .i32⟩
  | .hbm, ⟨40, _⟩ => ⟨S16384x4, .f32⟩
  | .hbm, ⟨41, _⟩ => ⟨S_, .f32⟩
  | .hbm, ⟨42, _⟩ => ⟨S16384, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S16384x512, .f32⟩
  | .hbm, ⟨47, _⟩ => ⟨S_, .f32⟩
  | .hbm, ⟨48, _⟩ => ⟨S16384, .f32⟩
  | .hbm, ⟨49, _⟩ => ⟨S16384, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S16384, .f32⟩
  | .hbm, ⟨56, _⟩ => ⟨S16384, .f32⟩
  | .hbm, ⟨57, _⟩ => ⟨S16384, .f32⟩
  | .hbm, ⟨58, _⟩ => ⟨S16384, .f32⟩
  | .hbm, ⟨59, _⟩ => ⟨S16384x1, .f32⟩
  | .hbm, ⟨60, _⟩ => ⟨S16384x512, .bf16⟩
  | .hbm, ⟨61, _⟩ => ⟨S512x2048, .bf16⟩
  | .hbm, ⟨62, _⟩ => ⟨S2048x1024, .bf16⟩
  | .hbm, ⟨63, _⟩ => ⟨S1024x512, .bf16⟩
  | .hbm, ⟨64, _⟩ => ⟨S512x1, .bf16⟩
  | .hbm, ⟨65, _⟩ => ⟨S1x2048, .f32⟩
  | .hbm, ⟨66, _⟩ => ⟨S1x1024, .f32⟩
  | .hbm, ⟨67, _⟩ => ⟨S1x512, .f32⟩
  | .hbm, ⟨68, _⟩ => ⟨S1x1, .f32⟩
  | .hbm, ⟨69, _⟩ => ⟨S16384x1, .f32⟩
  | .local _ .vmem, ⟨0, _⟩ => ⟨S1024x512, .bf16⟩
  | .local _ .vmem, ⟨1, _⟩ => ⟨S1024x512, .bf16⟩
  | .local _ .vmem, ⟨2, _⟩ => ⟨S1024x1, .f32⟩
  | .local _ .vmem, ⟨3, _⟩ => ⟨S1024x1, .f32⟩
  | .local _ .vmem, ⟨4, _⟩ => ⟨S512x2048, .bf16⟩
  | .local _ .vmem, ⟨5, _⟩ => ⟨S1x2048, .f32⟩
  | .local _ .vmem, ⟨6, _⟩ => ⟨S2048x1024, .bf16⟩
  | .local _ .vmem, ⟨7, _⟩ => ⟨S1x1024, .f32⟩
  | .local _ .vmem, ⟨8, _⟩ => ⟨S1024x512, .bf16⟩
  | .local _ .vmem, ⟨9, _⟩ => ⟨S1x512, .f32⟩
  | .local _ .vmem, ⟨10, _⟩ => ⟨S512x1, .bf16⟩
  | .local _ .vmem, ⟨11, _⟩ => ⟨S1x1, .f32⟩
  | .local _ .vmem, ⟨12, _⟩ => ⟨S1024x1, .f32⟩
  | .local _ .vmem, ⟨13, _⟩ => ⟨S1024x1, .f32⟩
  | _, _ => ⟨S16384x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_c_0 : Ref sig .tc := ⟨.hbm, 14, rfl⟩
abbrev main_v1 : Ref sig .tc := ⟨.hbm, 15, rfl⟩
abbrev main_v2 : Ref sig .tc := ⟨.hbm, 16, rfl⟩
abbrev main_c_1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_cst_8 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S16384x4 : S_.BroadcastsInDim S16384x4 (![] : Fin 0 → Fin S16384x4.rank)
  bcast_S16384x4_S16384x4x1_0_1 : S16384x4.BroadcastsInDim S16384x4x1 (![0, 1] : Fin 2 → Fin S16384x4x1.rank)
  shapeCasts_S16384x4x128_S16384x512 : S16384x4x128.ShapeCasts S16384x512
  bcast_S4_S1x4_1 : S4.BroadcastsInDim S1x4 (![1] : Fin 1 → Fin S1x4.rank)
  bcast_S1x4_S16384x4_0_1 : S1x4.BroadcastsInDim S16384x4 (![0, 1] : Fin 2 → Fin S16384x4.rank)
  concatenates_S16384x4x1_S16384x4x1_S16384x4x2_d2 : Shape.Concatenates [S16384x4x1, S16384x4x1] S16384x4x2 2
  reducesTo_S16384x4_S16384_d1 : S16384x4.ReducesTo [1] S16384
  h_S_ : 0 < S_.numel
  reducesTo_S16384x512_S16384_d1 : S16384x512.ReducesTo [1] S16384
  reducesTo_S16384_S_d0 : S16384.ReducesTo [0] S_
  shapeCasts_S1_S_ : S1.ShapeCasts S_
  bcast_S_S16384 : S_.BroadcastsInDim S16384 (![] : Fin 0 → Fin S16384.rank)
  shapeCasts_S16384_S16384x1 : S16384.ShapeCasts S16384x1
  bitsLt_bf16_f32 : FTy.bits .bf16 < FTy.bits .f32
  shapeCasts_S2048_S1x2048 : S2048.ShapeCasts S1x2048
  shapeCasts_S1024_S1x1024 : S1024.ShapeCasts S1x1024
  shapeCasts_S512_S1x512 : S512.ShapeCasts S1x512
  shapeCasts_S1_S1x1 : S1.ShapeCasts S1x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  gather_S38279x128_S16384x4x1_S16384x4x128_2_0_n_n_0_2_1128_wf : GatherDims.WF S38279x128 S16384x4x1 S16384x4x128 [2] [0] [] [0] [] 2 ![1, 128]
  gather_S38279x1_S16384x4x2_S16384x4_n_01_n_n_01_2_11_wf : GatherDims.WF S38279x1 S16384x4x2 S16384x4 [] [0, 1] [] [0, 1] [] 2 ![1, 1]
  dot_S1024x512_S512x2048_S1024x2048_1_0_0_1_n_n_wf : DotDims.WF S1024x512 S512x2048 S1024x2048 [1] [0] [0] [1] [] []
  dot_S1024x2048_S2048x1024_S1024x1024_1_0_0_1_n_n_wf : DotDims.WF S1024x2048 S2048x1024 S1024x1024 [1] [0] [0] [1] [] []
  dot_S1024x1024_S1024x512_S1024x512_1_0_0_1_n_n_wf : DotDims.WF S1024x1024 S1024x512 S1024x512 [1] [0] [0] [1] [] []
  dot_S1024x512_S512x1_S1024x1_1_0_0_1_n_n_wf : DotDims.WF S1024x512 S512x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .bf16 = 32 ∨ (Rect.block (s := S16384x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .f32 = 32 ∨ (Rect.block (s := S16384x1) S1024x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x2048.size a
  hwx0_2 : ∀ i : grid0.Coords, EltTy.bits .bf16 = 32 ∨ (Rect.block (s := S512x2048) S512x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x1024.size a
  hwx0_4 : ∀ i : grid0.Coords, EltTy.bits .bf16 = 32 ∨ (Rect.block (s := S2048x1024) S2048x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .bf16 = 32 ∨ (Rect.block (s := S1024x512) S1024x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S512x1.size a
  hwx0_8 : ∀ i : grid0.Coords, EltTy.bits .bf16 = 32 ∨ (Rect.block (s := S512x1) S512x1.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x1.size a ≤ S16384x1.size a
  hwx0_10 : ∀ i : grid0.Coords, EltTy.bits .f32 = 32 ∨ (Rect.block (s := S16384x1) S1024x1.size (cc0_transform_10 i) (hinb0_10 i)).WholeWords (EltTy.packing .f32)

variable [Facts₀]

def gather_S38279x128_S16384x4x1_S16384x4x128_2_0_n_n_0_2_1128 : GatherDims S38279x128 S16384x4x1 S16384x4x128 where
  offsetDims := [2]
  collapsedSliceDims := [0]
  operandBatchingDims := []
  startIndicesBatchingDims := []
  startIndexMap := [0]
  indexVectorDim := 2
  sliceSizes := ![1, 128]
  wf := gather_S38279x128_S16384x4x1_S16384x4x128_2_0_n_n_0_2_1128_wf
def gather_S38279x1_S16384x4x2_S16384x4_n_01_n_n_01_2_11 : GatherDims S38279x1 S16384x4x2 S16384x4 where
  offsetDims := []
  collapsedSliceDims := [0, 1]
  operandBatchingDims := []
  startIndicesBatchingDims := []
  startIndexMap := [0, 1]
  indexVectorDim := 2
  sliceSizes := ![1, 1]
  wf := gather_S38279x1_S16384x4x2_S16384x4_n_01_n_n_01_2_11_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

abbrev win0_0 : Pipeline.Window sig grid0 :=
  Pipeline.Window.ofSpec (Memref.whole main_v37) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S2048x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v44) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41) S512x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v45) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v46) S1024x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x4 : Shape := ⟨2, ![16384, 4]⟩
abbrev S1 : Shape := ⟨1, ![1]⟩
abbrev S38279x1 : Shape := ⟨2, ![38279, 1]⟩
abbrev S38279x128 : Shape := ⟨2, ![38279, 128]⟩
abbrev S512x2048 : Shape := ⟨2, ![512, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S4 : Shape := ⟨1, ![4]⟩
abbrev S_ : Shape := ⟨0, ![]⟩
abbrev S16384x4x1 : Shape := ⟨3, ![16384, 4, 1]⟩
abbrev S16384x4x128 : Shape := ⟨3, ![16384, 4, 128]⟩
abbrev S16384x512 : Shape := ⟨2, ![16384, 512]⟩
abbrev S1x4 : Shape := ⟨2, ![1, 4]⟩
abbrev S16384x4x2 : Shape := ⟨3, ![16384, 4, 2]⟩
abbrev S16384 : Shape := ⟨1, ![16384]⟩
abbrev S16384x1 : Shape := ⟨2, ![16384, 1]⟩
abbrev S16384x2048 : Shape := ⟨2, ![16384, 2048]⟩
abbrev S1x2048 : Shape := ⟨2, ![1, 2048]⟩
abbrev S16384x1024 : Shape := ⟨2, ![16384, 1024]⟩
abbrev S1x1024 : Shape := ⟨2, ![1, 1024]⟩
abbrev S1x512 : Shape := ⟨2, ![1, 512]⟩
abbrev S1x1 : Shape := ⟨2, ![1, 1]⟩

abbrev nBuf : Space → Nat
  | .hbm => 95
  | .vmem => 0
  | .smem => 0
  | _ => 0

abbrev bufTy : (tb : Table) → Fin (tcTables nBuf tb) → BufTy
  | .hbm, ⟨0, _⟩ => ⟨S16384x4, .f32⟩
  | .hbm, ⟨1, _⟩ => ⟨S1, .f32⟩
  | .hbm, ⟨2, _⟩ => ⟨S38279x1, .f32⟩
  | .hbm, ⟨3, _⟩ => ⟨S38279x128, .f32⟩
  | .hbm, ⟨4, _⟩ => ⟨S512x2048, .f32⟩
  | .hbm, ⟨5, _⟩ => ⟨S2048, .f32⟩
  | .hbm, ⟨6, _⟩ => ⟨S2048x1024, .f32⟩
  | .hbm, ⟨7, _⟩ => ⟨S1024, .f32⟩
  | .hbm, ⟨8, _⟩ => ⟨S1024x512, .f32⟩
  | .hbm, ⟨9, _⟩ => ⟨S512, .f32⟩
  | .hbm, ⟨10, _⟩ => ⟨S512x1, .f32⟩
  | .hbm, ⟨11, _⟩ => ⟨S1, .f32⟩
  | .hbm, ⟨12, _⟩ => ⟨S4, .i32⟩
  | .hbm, ⟨13, _⟩ => ⟨S16384x4, .i32⟩
  | .hbm, ⟨14, _⟩ => ⟨S_, .i32⟩
  | .hbm, ⟨15, _⟩ => ⟨S16384x4, .i32⟩
  | .hbm, ⟨16, _⟩ => ⟨S16384x4, .i1⟩
  | .hbm, ⟨17, _⟩ => ⟨S_, .i32⟩
  | .hbm, ⟨18, _⟩ => ⟨S16384x4, .i32⟩
  | .hbm, ⟨19, _⟩ => ⟨S16384x4, .i32⟩
  | .hbm, ⟨20, _⟩ => ⟨S16384x4, .i32⟩
  | .hbm, ⟨21, _⟩ => ⟨S16384x4x1, .i32⟩
  | .hbm, ⟨22, _⟩ => ⟨S16384x4x128, .f32⟩
  | .hbm, ⟨23, _⟩ => ⟨S16384x512, .f32⟩
  | .hbm, ⟨24, _⟩ => ⟨S1x4, .i32⟩
  | .hbm, ⟨25, _⟩ => ⟨S16384x4, .i32⟩
  | .hbm, ⟨26, _⟩ => ⟨S16384x4, .i32⟩
  | .hbm, ⟨27, _⟩ => ⟨S_, .i32⟩
  | .hbm, ⟨28, _⟩ => ⟨S16384x4, .i32⟩
  | .hbm, ⟨29, _⟩ => ⟨S16384x4, .i1⟩
  | .hbm, ⟨30, _⟩ => ⟨S_, .i32⟩
  | .hbm, ⟨31, _⟩ => ⟨S16384x4, .i32⟩
  | .hbm, ⟨32, _⟩ => ⟨S16384x4, .i32⟩
  | .hbm, ⟨33, _⟩ => ⟨S16384x4, .i32⟩
  | .hbm, ⟨34, _⟩ => ⟨S_, .i32⟩
  | .hbm, ⟨35, _⟩ => ⟨S16384x4, .i32⟩
  | .hbm, ⟨36, _⟩ => ⟨S16384x4, .i32⟩
  | .hbm, ⟨37, _⟩ => ⟨S16384x4x1, .i32⟩
  | .hbm, ⟨38, _⟩ => ⟨S16384x4x1, .i32⟩
  | .hbm, ⟨39, _⟩ => ⟨S16384x4x2, .i32⟩
  | .hbm, ⟨40, _⟩ => ⟨S16384x4, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384, .f32⟩
  | .hbm, ⟨45, _⟩ => ⟨S_, .f32⟩
  | .hbm, ⟨46, _⟩ => ⟨S16384, .f32⟩
  | .hbm, ⟨47, _⟩ => ⟨S16384, .f32⟩
  | .hbm, ⟨48, _⟩ => ⟨S16384x512, .f32⟩
  | .hbm, ⟨49, _⟩ => ⟨S_, .f32⟩
  | .hbm, ⟨50, _⟩ => ⟨S16384, .f32⟩
  | .hbm, ⟨51, _⟩ => ⟨S16384, .f32⟩
  | .hbm, ⟨52, _⟩ => ⟨S_, .f32⟩
  | .hbm, ⟨53, _⟩ => ⟨S_, .f32⟩
  | .hbm, ⟨54, _⟩ => ⟨S1, .f32⟩
  | .hbm, ⟨55, _⟩ => ⟨S_, .f32⟩
  | .hbm, ⟨56, _⟩ => ⟨S1, .f32⟩
  | .hbm, ⟨57, _⟩ => ⟨S1, .f32⟩
  | .hbm, ⟨58, _⟩ => ⟨S16384, .f32⟩
  | .hbm, ⟨59, _⟩ => ⟨S16384, .f32⟩
  | .hbm, ⟨60, _⟩ => ⟨S16384x1, .f32⟩
  | .hbm, ⟨61, _⟩ => ⟨S16384x2048, .f32⟩
  | .hbm, ⟨62, _⟩ => ⟨S1x2048, .f32⟩
  | .hbm, ⟨63, _⟩ => ⟨S16384x2048, .f32⟩
  | .hbm, ⟨64, _⟩ => ⟨S16384x2048, .f32⟩
  | .hbm, ⟨65, _⟩ => ⟨S_, .f32⟩
  | .hbm, ⟨66, _⟩ => ⟨S16384x2048, .f32⟩
  | .hbm, ⟨67, _⟩ => ⟨S16384x2048, .f32⟩
  | .hbm, ⟨68, _⟩ => ⟨S16384x1024, .f32⟩
  | .hbm, ⟨69, _⟩ => ⟨S1x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1024, .f32⟩
  | .hbm, ⟨74, _⟩ => ⟨S16384x1024, .f32⟩
  | .hbm, ⟨75, _⟩ => ⟨S16384x512, .f32⟩
  | .hbm, ⟨76, _⟩ => ⟨S1x512, .f32⟩
  | .hbm, ⟨77, _⟩ => ⟨S16384x512, .f32⟩
  | .hbm, ⟨78, _⟩ => ⟨S16384x512, .f32⟩
  | .hbm, ⟨79, _⟩ => ⟨S_, .f32⟩
  | .hbm, ⟨80, _⟩ => ⟨S16384x512, .f32⟩
  | .hbm, ⟨81, _⟩ => ⟨S16384x512, .f32⟩
  | .hbm, ⟨82, _⟩ => ⟨S16384x1, .f32⟩
  | .hbm, ⟨83, _⟩ => ⟨S1x1, .f32⟩
  | .hbm, ⟨84, _⟩ => ⟨S16384x1, .f32⟩
  | .hbm, ⟨85, _⟩ => ⟨S16384x1, .f32⟩
  | .hbm, ⟨86, _⟩ => ⟨S16384x1, .f32⟩
  | .hbm, ⟨87, _⟩ => ⟨S16384x1, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | _, _ => ⟨S16384x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_c_0 : Ref sig .tc := ⟨.hbm, 14, rfl⟩
abbrev main_v1 : Ref sig .tc := ⟨.hbm, 15, rfl⟩
abbrev main_v2 : Ref sig .tc := ⟨.hbm, 16, rfl⟩
abbrev main_c_1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call0_cst : Ref sig .tc := ⟨.hbm, 65, rfl⟩
abbrev main_call0_v0 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call2_cst : Ref sig .tc := ⟨.hbm, 79, rfl⟩
abbrev main_call2_v0 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_v61 : Ref sig .tc := ⟨.hbm, 91, rfl⟩
abbrev main_cst_10 : Ref sig .tc := ⟨.hbm, 92, rfl⟩
abbrev main_v62 : Ref sig .tc := ⟨.hbm, 93, rfl⟩
abbrev main_v63 : Ref sig .tc := ⟨.hbm, 94, rfl⟩

abbrev nD : Nat := 1
abbrev τ : Topo := Topo.v7x

variable {F : FTy → Type} [FloatOps F]

class Facts₀ : Prop where
  bcast_S_S16384x4 : S_.BroadcastsInDim S16384x4 (![] : Fin 0 → Fin S16384x4.rank)
  bcast_S16384x4_S16384x4x1_0_1 : S16384x4.BroadcastsInDim S16384x4x1 (![0, 1] : Fin 2 → Fin S16384x4x1.rank)
  shapeCasts_S16384x4x128_S16384x512 : S16384x4x128.ShapeCasts S16384x512
  bcast_S4_S1x4_1 : S4.BroadcastsInDim S1x4 (![1] : Fin 1 → Fin S1x4.rank)
  bcast_S1x4_S16384x4_0_1 : S1x4.BroadcastsInDim S16384x4 (![0, 1] : Fin 2 → Fin S16384x4.rank)
  concatenates_S16384x4x1_S16384x4x1_S16384x4x2_d2 : Shape.Concatenates [S16384x4x1, S16384x4x1] S16384x4x2 2
  reducesTo_S16384x4_S16384_d1 : S16384x4.ReducesTo [1] S16384
  h_S_ : 0 < S_.numel
  bcast_S1_S16384_0 : S1.BroadcastsInDim S16384 (![0] : Fin 1 → Fin S16384.rank)
  reducesTo_S16384x512_S16384_d1 : S16384x512.ReducesTo [1] S16384
  reducesTo_S16384_S_d0 : S16384.ReducesTo [0] S_
  bcast_S_S1 : S_.BroadcastsInDim S1 (![] : Fin 0 → Fin S1.rank)
  bcast_S16384_S16384x1_0 : S16384.BroadcastsInDim S16384x1 (![0] : Fin 1 → Fin S16384x1.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  gather_S38279x128_S16384x4x1_S16384x4x128_2_0_n_n_0_2_1128_wf : GatherDims.WF S38279x128 S16384x4x1 S16384x4x128 [2] [0] [] [0] [] 2 ![1, 128]
  gather_S38279x1_S16384x4x2_S16384x4_n_01_n_n_01_2_11_wf : GatherDims.WF S38279x1 S16384x4x2 S16384x4 [] [0, 1] [] [0, 1] [] 2 ![1, 1]
  dot_S16384x512_S512x2048_S16384x2048_1_0_0_1_n_n_wf : DotDims.WF S16384x512 S512x2048 S16384x2048 [1] [0] [0] [1] [] []
  dot_S16384x2048_S2048x1024_S16384x1024_1_0_0_1_n_n_wf : DotDims.WF S16384x2048 S2048x1024 S16384x1024 [1] [0] [0] [1] [] []
  dot_S16384x1024_S1024x512_S16384x512_1_0_0_1_n_n_wf : DotDims.WF S16384x1024 S1024x512 S16384x512 [1] [0] [0] [1] [] []
  dot_S16384x512_S512x1_S16384x1_1_0_0_1_n_n_wf : DotDims.WF S16384x512 S512x1 S16384x1 [1] [0] [0] [1] [] []

variable [Facts₀]

def gather_S38279x128_S16384x4x1_S16384x4x128_2_0_n_n_0_2_1128 : GatherDims S38279x128 S16384x4x1 S16384x4x128 where
  offsetDims := [2]
  collapsedSliceDims := [0]
  operandBatchingDims := []
  startIndicesBatchingDims := []
  startIndexMap := [0]
  indexVectorDim := 2
  sliceSizes := ![1, 128]
  wf := gather_S38279x128_S16384x4x1_S16384x4x128_2_0_n_n_0_2_1128_wf
def gather_S38279x1_S16384x4x2_S16384x4_n_01_n_n_01_2_11 : GatherDims S38279x1 S16384x4x2 S16384x4 where
  offsetDims := []
  collapsedSliceDims := [0, 1]
  operandBatchingDims := []
  startIndicesBatchingDims := []
  startIndexMap := [0, 1]
  indexVectorDim := 2
  sliceSizes := ![1, 1]
  wf := gather_S38279x1_S16384x4x2_S16384x4_n_01_n_n_01_2_11_wf
def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x1_S16384x1_1_0_0_1_n_n : DotDims S16384x512 S512x1 S16384x1 where
  lhsContracting := [1]
  rhsContracting := [0]
  lhsNonContracting := [0]
  rhsNonContracting := [1]
  lhsBatch := []
  rhsBatch := []
  wf := dot_S16384x512_S512x1_S16384x1_1_0_0_1_n_n_wf

class Facts : Prop extends Facts₀ where

variable [Facts]
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.Mlp.lean ====
/-
  A multilayer perceptron read one row at a time over the extended reals.

  A dense layer with a rectifier sends a row e (K entries) to the row whose entry j is
  max (Σₖ e k · W k j + b j) 0. The score of a row is three such layers followed by a last product with one
  column and a shift; the prediction is the logistic function of a per-row offset plus the score. Every
  entry of the result depends on ONE row of the input only, so a tile of rows computes the same entries as
  the whole batch.

  Two spellings of one layer are read here at an entry: the tile's (a product into a zero accumulator, a bias
  row spread down the rows, a maximum with a splat zero) and the host's (the host product, the bias laid along
  the second axis by two broadcasts, a maximum with a broadcast zero scalar).
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«161591_j37349035606580_1_alg».proof.Proof.LibPlainProduct

noncomputable section

namespace Cert.DeepFM

open Idealize.ShloMosaic Idealize.ShloMosaic.ValueIdx

/-- A dense layer with a rectifier on one row: entry j is max (Σₖ e k · W k j + b j) 0. -/
def layer {K N : ℕ} (W : Fin K → Fin N → EReal) (b : Fin N → EReal) (e : Fin K → EReal) : Fin N → EReal :=
  fun j => max ((∑ k : Fin K, e k * W k j) + b j) 0

/-- A layer's entry depends on the row only through its entries. -/
theorem layer_congr {K N : ℕ} (W : Fin K → Fin N → EReal) (b : Fin N → EReal) {e e' : Fin K → EReal}
    (h : ∀ k, e k = e' k) (j : Fin N) : layer W b e j = layer W b e' j := by
  rw [show e = e' from funext h]

/-- The score of one row: three rectified layers, then the product with one column and a shift. -/
def score {d0 d1 d2 d3 : ℕ} (W1 : Fin d0 → Fin d1 → EReal) (b1 : Fin d1 → EReal) (W2 : Fin d1 → Fin d2 → EReal)
    (b2 : Fin d2 → EReal) (W3 : Fin d2 → Fin d3 → EReal) (b3 : Fin d3 → EReal) (w4 : Fin d3 → EReal) (c4 : EReal)
    (e : Fin d0 → EReal) : EReal :=
  (∑ k : Fin d3, layer W3 b3 (layer W2 b2 (layer W1 b1 e)) k * w4 k) + c4

/-- The prediction for one row: the logistic function of the row's offset plus its score. -/
def predict {d0 d1 d2 d3 : ℕ} (W1 : Fin d0 → Fin d1 → EReal) (b1 : Fin d1 → EReal) (W2 : Fin d1 → Fin d2 → EReal)
    (b2 : Fin d2 → EReal) (W3 : Fin d2 → Fin d3 → EReal) (b3 : Fin d3 → EReal) (w4 : Fin d3 → EReal) (c4 : EReal)
    (f : EReal) (e : Fin d0 → EReal) : EReal :=
  Ideal.logistic (f + score W1 b1 W2 b2 W3 b3 w4 c4 e)

/-! ## One layer as a tile computes it -/

/-- A product into the zero accumulator plus a bias row spread down the rows, rectified against a splat zero:
    at (p, q) it is the layer of row p at q. -/
theorem tileLayer_apply {M K N : ℕ} {φ₁ φ₂ : FTy} (prec : Option ContractPrecision)
    (X : FVec Ideal ⟨2, ![M, K]⟩ φ₁) (W : FVec Ideal ⟨2, ![K, N]⟩ φ₂) (b : FVec Ideal ⟨2, ![1, N]⟩ .f32)
    (hw : (⟨2, ![K, N]⟩ : Shape).ShapeCasts ⟨2, ![K, N]⟩)
    (hb : (⟨2, ![1, N]⟩ : Shape).ShapeCasts ⟨2, ![1, N]⟩)
    (hbb : (⟨2, ![1, N]⟩ : Shape).Broadcasts ⟨2, ![M, N]⟩) (p : Fin M) (q : Fin N) :
    maximumf
        (addf (matmul (F := Ideal) (DotDims.plain M K N) prec X (shapeCast ⟨2, ![K, N]⟩ W hw)
                (constant (F := Ideal) ⟨2, ![M, N]⟩ .f32 0x00000000#32))
              (broadcastTo ⟨2, ![M, N]⟩ (shapeCast ⟨2, ![1, N]⟩ b hb) hbb))
        (broadcast ⟨2, ![M, N]⟩ (Scalar.ofBits (F := Ideal) .f32 0x00000000#32)) (ix2 p q)
      = layer (fun k j => W (ix2 k j)) (fun j => b (ix2 (0 : Fin 1) j)) (fun k => X (ix2 p k)) q :=
  congrArg₂ max
    (congrArg₂ (· + ·)
      ((Cert.PlainProduct.matmul_zero_apply prec X _ p q).trans
        (Finset.sum_congr rfl fun x _ => congrArg (X (ix2 p x) * ·) (congrFun (shapeCast_self W hw) (ix2 x q))))
      ((broadcastTo_1b_ab_apply _ hbb p q).trans (congrFun (shapeCast_self b hb) (ix2 (0 : Fin 1) q))))
    Ideal.ofBits_zero_f32

/-! ## One layer as the host computes it -/

/-- A vector laid along the second axis of an [M, N] array by two broadcasts reads, at (p, q), the vector at q. -/
theorem rowBias_apply {α : Type} {M N : ℕ} (h1 : (⟨1, ![N]⟩ : Shape).BroadcastsInDim ⟨2, ![1, N]⟩ ![1])
    (h2 : (⟨2, ![1, N]⟩ : Shape).BroadcastsInDim ⟨2, ![M, N]⟩ ![0, 1]) (b : (⟨1, ![N]⟩ : Shape).Idx → α)
    (p : Fin M) (q : Fin N) :
    broadcastInDim ⟨2, ![M, N]⟩ ![0, 1] h2 (broadcastInDim ⟨2, ![1, N]⟩ ![1] h1 b) (ix2 p q) = b (ix1 q) := by
  have hq := q.isLt
  refine (broadcastInDim_apply ![0, 1] h2 _ (ix2 p q) (ix2 (0 : Fin 1) q) fun a => ?_).trans
    (broadcastInDim_apply ![1] h1 b (ix2 (0 : Fin 1) q) (ix1 q) fun a => ?_)
  · match a with
    | ⟨0, _⟩ => show (0 : ℕ) = if (1 : ℕ) = 1 then 0 else p.val; rw [if_pos rfl]
    | ⟨1, _⟩ =>
      show q.val = if N = 1 then 0 else q.val
      split
      · omega
      · rfl
  · match a with
    | ⟨0, _⟩ =>
      show q.val = if N = 1 then 0 else q.val
      split
      · omega
      · rfl

/-- The host product plus a bias laid along the second axis, rectified against a broadcast zero scalar:
    at (p, q) it is the layer of row p at q. -/
theorem hostLayer_apply {M K N : ℕ} (prec : Option ContractPrecision)
    (X : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (p : Fin M) (q : Fin N) :
    maximumf
        (addf (Host.dotGeneral (F := Ideal) (DotDims.plain M K N) prec X W)
              (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 p q)
      = layer (fun k j => W (ix2 k j)) (fun j => b (ix1 j)) (fun k => X (ix2 p k)) q :=
  congrArg₂ max
    (congrArg₂ (· + ·) (Cert.PlainProduct.dotGeneral_apply prec X W p q) (rowBias_apply h1 h2 b p q))
    ((broadcastInDim_scalar_apply h0 _ (ix2 p q)).trans Ideal.ofBits_zero_f32)

end Cert.DeepFM

end
-- ==== Proof.KernelTile.lean ====
/-
  What one tile of 1024 rows leaves in its output block, entry by entry: the logistic function of the row's
  offset plus the row's score — three rectified dense layers over the row of 512 embedding entries, then the
  product with the last column and its shift. The narrowing of an activation to a shorter float format between
  two layers is the identity over the extended reals, so the tile's four products compose as the layers do.
-/
import proofs.«161591_j37349035606580_1_alg».proof.Proof.Gen.KernelIdeal.Skeleton
import proofs.«161591_j37349035606580_1_alg».proof.Proof.Mlp

noncomputable section

namespace Cert.KernelIdeal.Hand

open Cert.KernelIdeal Cert.KernelIdeal.Gen Idealize.ShloMosaic Idealize.ShloMosaic.ValueIdx Cert.DeepFM

/-- The tile's last product, at row p: the sum over the 512 entries of the third layer's row times the
    last column. -/
theorem pay2_apply (v0 : Vec Ideal S1024x512 .bf16) (v2 : Vec Ideal S512x2048 .bf16) (v5 : Vec Ideal S1x2048 .f32)
    (v12 : Vec Ideal S2048x1024 .bf16) (v15 : Vec Ideal S1x1024 .f32) (v22 : Vec Ideal S1024x512 .bf16)
    (v25 : Vec Ideal S1x512 .f32) (v32 : Vec Ideal S512x1 .bf16) (p : Fin 1024) (u : Fin 1) :
    k0_pay2 (F := Ideal) v0 v2 v5 v12 v15 v22 v25 v32 (ix2 p u)
      = ∑ k : Fin 512,
          layer (fun a j => v22 (ix2 a j)) (fun j => v25 (ix2 (0 : Fin 1) j))
            (layer (fun a j => v12 (ix2 a j)) (fun j => v15 (ix2 (0 : Fin 1) j))
              (layer (fun a j => v2 (ix2 a j)) (fun j => v5 (ix2 (0 : Fin 1) j)) (fun a => v0 (ix2 p a)))) k
            * v32 (ix2 k u) := by
  unfold k0_pay2
  refine (Cert.PlainProduct.matmul_zero_apply none _ _ p u).trans ?_
  refine Finset.sum_congr rfl fun x _ => congrArg₂ (· * ·) ?_ (congrFun (shapeCast_self v32 _) (ix2 x u))
  refine (truncf_apply (ψ := .bf16) _ bitsLt_bf16_f32 (ix2 p x)).trans ?_
  refine (tileLayer_apply none _ v22 v25 _ _ _ p x).trans (layer_congr _ _ (fun k => ?_) x)
  refine (truncf_apply (ψ := .bf16) _ bitsLt_bf16_f32 (ix2 p k)).trans ?_
  refine (tileLayer_apply none _ v12 v15 _ _ _ p k).trans (layer_congr _ _ (fun k' => ?_) k)
  refine (truncf_apply (ψ := .bf16) _ bitsLt_bf16_f32 (ix2 p k')).trans ?_
  refine (tileLayer_apply none _ v2 v5 _ _ _ p k').trans (layer_congr _ _ (fun a => ?_) k')
  exact congrFun (shapeCast_self v0 _) (ix2 p a)

end Cert.KernelIdeal.Hand

end
-- ==== Proof.KernelArray.lean ====
/-
  The kernel's result array after the run, as ONE function of the arrays the region finds.

  Point t of the grid of 16 stages rows 1024·t … 1024·t + 1023 of the embedding and of the offset column, and the
  whole of every weight matrix and bias row; what it writes back is, at row p of its block, the prediction for
  batch row 1024·t + p. The 16 output blocks tile the [16384, 1] result, so after the run entry r of the result
  is the prediction for row r — a function of row r of the embedding, entry r of the offset and the weights.
-/
import proofs.«161591_j37349035606580_1_alg».proof.Proof.KernelIdealValue
import proofs.«161591_j37349035606580_1_alg».proof.Proof.KernelTile
import Idealize.ShloMosaic.Lib.Pipeline.Value

noncomputable section

namespace Cert.KernelIdeal.Hand

open Cert.KernelIdeal Cert.KernelIdeal.Gen Cert.KernelIdeal.ValueP Idealize.ShloMosaic Idealize.ShloMosaic.TcCoe
open Idealize.SL.Sem Idealize.ShloMosaic.ValueIdx Cert.DeepFM
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- What the body leaves in the output block at row p: the prediction for that row of the staged blocks. -/
theorem out_apply (x0 : Vec Ideal S1024x512 .bf16) (x1 : Vec Ideal S1024x1 .f32) (x2 : Vec Ideal S512x2048 .bf16)
    (x3 : Vec Ideal S1x2048 .f32) (x4 : Vec Ideal S2048x1024 .bf16) (x5 : Vec Ideal S1x1024 .f32)
    (x6 : Vec Ideal S1024x512 .bf16) (x7 : Vec Ideal S1x512 .f32) (x8 : Vec Ideal S512x1 .bf16) (x9 : Vec Ideal S1x1 .f32)
    (p : Fin 1024) (u : Fin 1) :
    out0_10 (F := Ideal) x0 x1 x2 x3 x4 x5 x6 x7 x8 x9 (ix2 p u)
      = predict (fun a j => x2 (ix2 a j)) (fun j => x3 (ix2 (0 : Fin 1) j))
          (fun a j => x4 (ix2 a j)) (fun j => x5 (ix2 (0 : Fin 1) j))
          (fun a j => x6 (ix2 a j)) (fun j => x7 (ix2 (0 : Fin 1) j))
          (fun k => x8 (ix2 k u)) (x9 (ix2 (0 : Fin 1) (0 : Fin 1))) (x1 (ix2 p u)) (fun a => x0 (ix2 p a)) := by
  have hu : u.val = 0 := by omega
  unfold out0_10
  simp only [View.ld_unit_zero (S := S1024x512) hz, View.ld_unit_zero (S := S1024x1) hz, View.ld_unit_zero (S := S512x2048) hz,
    View.ld_unit_zero (S := S1x2048) hz, View.ld_unit_zero (S := S2048x1024) hz, View.ld_unit_zero (S := S1x1024) hz,
    View.ld_unit_zero (S := S1x512) hz, View.ld_unit_zero (S := S512x1) hz, View.ld_unit_zero (S := S1x1) hz]
  refine (canon10_eq x1 x0 x2 x3 x4 x5 x6 x7 x8 x9 (ix2 p u)).trans ?_
  have e0 : ix10_0 (ix2 p u) = ix2 p u := funext fun a => Fin.ext (by
    match a with
    | ⟨0, _⟩ => rfl
    | ⟨1, _⟩ => exact hu.symm)
  have e1 : ix10_1 (ix2 p u) = ix2 p u := funext fun a => Fin.ext (by
    match a with
    | ⟨0, _⟩ => rfl
    | ⟨1, _⟩ => exact hu.symm)
  have e2 : ix10_2 (ix2 p u) = ix2 (0 : Fin 1) (0 : Fin 1) := funext fun a => Fin.ext (by
    match a with
    | ⟨0, _⟩ => rfl
    | ⟨1, _⟩ => rfl)
  show Ideal.logistic (x1 (ix10_0 (ix2 p u)) + (k0_pay2 x0 x2 x3 x4 x5 x6 x7 x8 (ix10_1 (ix2 p u)) + x9 (ix10_2 (ix2 p u)))) = _
  rw [e0, e1, e2, pay2_apply]
  rfl

/-- The prediction for each batch row from the arrays the region finds: the embedding E, the offset column fm,
    the four weight matrices and the four bias rows. -/
def G (E : S16384x512.Idx → EReal) (fm : S16384x1.Idx → EReal) (W1 : S512x2048.Idx → EReal) (B1 : S1x2048.Idx → EReal)
    (W2 : S2048x1024.Idx → EReal) (B2 : S1x1024.Idx → EReal) (W3 : S1024x512.Idx → EReal) (B3 : S1x512.Idx → EReal)
    (W4 : S512x1.Idx → EReal) (B4 : S1x1.Idx → EReal) : S16384x1.Idx → EReal :=
  fun i => predict (fun a j => W1 (ix2 a j)) (fun j => B1 (ix2 (0 : Fin 1) j))
    (fun a j => W2 (ix2 a j)) (fun j => B2 (ix2 (0 : Fin 1) j))
    (fun a j => W3 (ix2 a j)) (fun j => B3 (ix2 (0 : Fin 1) j))
    (fun k => W4 (ix2 k (i 1))) (B4 (ix2 (0 : Fin 1) (0 : Fin 1))) (fm i) (fun a => E (ix2 (i 0) a))

/-- The printed index maps, decided over the 16 points: the embedding's, the offset's and the output's blocks move
    down the rows with the point, every other window stays at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- Every block of the output is some point's. -/
theorem idx_onto : ∀ q : Fin 16, ∃ t : Fin cfg0.N, t.val = q.val :=
  (by decide +kernel : ∀ q : Fin 16, ∃ t : Fin grid0.N, t.val = q.val)

/-! ## Each window's block at a point, read off its array -/

/-- The embedding's block at point t, at (x₀, x₁), is the embedding at row 1024·t + x₀, column x₁. -/
theorem blk0_apply (c : Dev nD) (t : Fin cfg0.N) (x : S1024x512.Idx) (k : S16384x512.Idx)
    (hk0 : (k 0).val = 1024 * t.val + (x 0).val) (hk1 : (k 1).val = (x 1).val) :
    (iblk m c 0 t : Vec Ideal S1024x512 .bf16) x = (V m c main_v37 : S16384x512.Idx → Ideal .bf16) k := by
  obtain ⟨e0, e1, -⟩ := idx_facts t
  unfold iblk
  rw [View.read_apply]
  refine congrArg (V m c main_v37 : S16384x512.Idx → Ideal .bf16) (funext fun a => Fin.ext ?_)
  match a with
  | ⟨0, _⟩ => show win0_0.index t (0 : Fin 2) * 1024 + 1 * (x 0).val = (k 0).val; rw [e0, hk0]; omega
  | ⟨1, _⟩ => show win0_0.index t (1 : Fin 2) * 512 + 1 * (x 1).val = (k 1).val; rw [e1, hk1]; omega

/-- The offset column's block at point t, at (x₀, x₁), is the column at row 1024·t + x₀. -/
theorem blk1_apply (c : Dev nD) (t : Fin cfg0.N) (x : S1024x1.Idx) (k : S16384x1.Idx)
    (hk0 : (k 0).val = 1024 * t.val + (x 0).val) (hk1 : (k 1).val = (x 1).val) :
    (iblk m c 1 t : Vec Ideal S1024x1 .f32) x = (V m c main_v36 : S16384x1.Idx → Ideal .f32) k := by
  obtain ⟨-, -, e0, e1, -⟩ := idx_facts t
  unfold iblk
  rw [View.read_apply]
  refine congrArg (V m c main_v36 : S16384x1.Idx → Ideal .f32) (funext fun a => Fin.ext ?_)
  match a with
  | ⟨0, _⟩ => show win0_1.index t (0 : Fin 2) * 1024 + 1 * (x 0).val = (k 0).val; rw [e0, hk0]; omega
  | ⟨1, _⟩ => show win0_1.index t (1 : Fin 2) * 1 + 1 * (x 1).val = (k 1).val; rw [e1, hk1]; omega

/-- The first weight matrix is staged whole at every point. -/
theorem blk2_apply (c : Dev nD) (t : Fin cfg0.N) (x : S512x2048.Idx) :
    (iblk m c 2 t : Vec Ideal S512x2048 .bf16) x = (V m c main_v38 : S512x2048.Idx → Ideal .bf16) x := by
  obtain ⟨-, -, -, -, e0, e1, -⟩ := idx_facts t
  unfold iblk
  rw [View.read_apply]
  refine congrArg (V m c main_v38 : S512x2048.Idx → Ideal .bf16) (funext fun a => Fin.ext ?_)
  match a with
  | ⟨0, _⟩ => show win0_2.index t (0 : Fin 2) * 512 + 1 * (x 0).val = (x 0).val; rw [e0]; omega
  | ⟨1, _⟩ => show win0_2.index t (1 : Fin 2) * 2048 + 1 * (x 1).val = (x 1).val; rw [e1]; omega

/-- So is the first bias row. -/
theorem blk3_apply (c : Dev nD) (t : Fin cfg0.N) (x : S1x2048.Idx) :
    (iblk m c 3 t : Vec Ideal S1x2048 .f32) x = (V m c main_v42 : S1x2048.Idx → Ideal .f32) x := by
  obtain ⟨-, -, -, -, -, -, e0, e1, -⟩ := idx_facts t
  unfold iblk
  rw [View.read_apply]
  refine congrArg (V m c main_v42 : S1x2048.Idx → Ideal .f32) (funext fun a => Fin.ext ?_)
  match a with
  | ⟨0, _⟩ => show win0_3.index t (0 : Fin 2) * 1 + 1 * (x 0).val = (x 0).val; rw [e0]; omega
  | ⟨1, _⟩ => show win0_3.index t (1 : Fin 2) * 2048 + 1 * (x 1).val = (x 1).val; rw [e1]; omega

/-- The second weight matrix. -/
theorem blk4_apply (c : Dev nD) (t : Fin cfg0.N) (x : S2048x1024.Idx) :
    (iblk m c 4 t : Vec Ideal S2048x1024 .bf16) x = (V m c main_v39 : S2048x1024.Idx → Ideal .bf16) x := by
  obtain ⟨-, -, -, -, -, -, -, -, e0, e1, -⟩ := idx_facts t
  unfold iblk
  rw [View.read_apply]
  refine congrArg (V m c main_v39 : S2048x1024.Idx → Ideal .bf16) (funext fun a => Fin.ext ?_)
  match a with
  | ⟨0, _⟩ => show win0_4.index t (0 : Fin 2) * 2048 + 1 * (x 0).val = (x 0).val; rw [e0]; omega
  | ⟨1, _⟩ => show win0_4.index t (1 : Fin 2) * 1024 + 1 * (x 1).val = (x 1).val; rw [e1]; omega

/-- The second bias row. -/
theorem blk5_apply (c : Dev nD) (t : Fin cfg0.N) (x : S1x1024.Idx) :
    (iblk m c 5 t : Vec Ideal S1x1024 .f32) x = (V m c main_v43 : S1x1024.Idx → Ideal .f32) x := by
  obtain ⟨-, -, -, -, -, -, -, -, -, -, e0, e1, -⟩ := idx_facts t
  unfold iblk
  rw [View.read_apply]
  refine congrArg (V m c main_v43 : S1x1024.Idx → Ideal .f32) (funext fun a => Fin.ext ?_)
  match a with
  | ⟨0, _⟩ => show win0_5.index t (0 : Fin 2) * 1 + 1 * (x 0).val = (x 0).val; rw [e0]; omega
  | ⟨1, _⟩ => show win0_5.index t (1 : Fin 2) * 1024 + 1 * (x 1).val = (x 1).val; rw [e1]; omega

/-- The third weight matrix. -/
theorem blk6_apply (c : Dev nD) (t : Fin cfg0.N) (x : S1024x512.Idx) :
    (iblk m c 6 t : Vec Ideal S1024x512 .bf16) x = (V m c main_v40 : S1024x512.Idx → Ideal .bf16) x := by
  obtain ⟨-, -, -, -, -, -, -, -, -, -, -, -, e0, e1, -⟩ := idx_facts t
  unfold iblk
  rw [View.read_apply]
  refine congrArg (V m c main_v40 : S1024x512.Idx → Ideal .bf16) (funext fun a => Fin.ext ?_)
  match a with
  | ⟨0, _⟩ => show win0_6.index t (0 : Fin 2) * 1024 + 1 * (x 0).val = (x 0).val; rw [e0]; omega
  | ⟨1, _⟩ => show win0_6.index t (1 : Fin 2) * 512 + 1 * (x 1).val = (x 1).val; rw [e1]; omega

/-- The third bias row. -/
theorem blk7_apply (c : Dev nD) (t : Fin cfg0.N) (x : S1x512.Idx) :
    (iblk m c 7 t : Vec Ideal S1x512 .f32) x = (V m c main_v44 : S1x512.Idx → Ideal .f32) x := by
  obtain ⟨-, -, -, -, -, -, -, -, -, -, -, -, -, -, e0, e1, -⟩ := idx_facts t
  unfold iblk
  rw [View.read_apply]
  refine congrArg (V m c main_v44 : S1x512.Idx → Ideal .f32) (funext fun a => Fin.ext ?_)
  match a with
  | ⟨0, _⟩ => show win0_7.index t (0 : Fin 2) * 1 + 1 * (x 0).val = (x 0).val; rw [e0]; omega
  | ⟨1, _⟩ => show win0_7.index t (1 : Fin 2) * 512 + 1 * (x 1).val = (x 1).val; rw [e1]; omega

/-- The last column of weights. -/
theorem blk8_apply (c : Dev nD) (t : Fin cfg0.N) (x : S512x1.Idx) :
    (iblk m c 8 t : Vec Ideal S512x1 .bf16) x = (V m c main_v41 : S512x1.Idx → Ideal .bf16) x := by
  obtain ⟨-, -, -, -, -, -, -, -, -, -, -, -, -, -, -, -, e0, e1, -⟩ := idx_facts t
  unfold iblk
  rw [View.read_apply]
  refine congrArg (V m c main_v41 : S512x1.Idx → Ideal .bf16) (funext fun a => Fin.ext ?_)
  match a with
  | ⟨0, _⟩ => show win0_8.index t (0 : Fin 2) * 512 + 1 * (x 0).val = (x 0).val; rw [e0]; omega
  | ⟨1, _⟩ => show win0_8.index t (1 : Fin 2) * 1 + 1 * (x 1).val = (x 1).val; rw [e1]; omega

/-- The last shift. -/
theorem blk9_apply (c : Dev nD) (t : Fin cfg0.N) (x : S1x1.Idx) :
    (iblk m c 9 t : Vec Ideal S1x1 .f32) x = (V m c main_v45 : S1x1.Idx → Ideal .f32) x := by
  obtain ⟨-, -, -, -, -, -, -, -, -, -, -, -, -, -, -, -, -, -, e0, e1, -⟩ := idx_facts t
  unfold iblk
  rw [View.read_apply]
  refine congrArg (V m c main_v45 : S1x1.Idx → Ideal .f32) (funext fun a => Fin.ext ?_)
  match a with
  | ⟨0, _⟩ => show win0_9.index t (0 : Fin 2) * 1 + 1 * (x 0).val = (x 0).val; rw [e0]; omega
  | ⟨1, _⟩ => show win0_9.index t (1 : Fin 2) * 1 + 1 * (x 1).val = (x 1).val; rw [e1]; omega

/-! ## From the blocks to the array -/

/-- The prediction depends on its weights, offset and row only through their entries. -/
theorem predict_congr {d0 d1 d2 d3 : ℕ} {W1 W1' : Fin d0 → Fin d1 → EReal} {b1 b1' : Fin d1 → EReal}
    {W2 W2' : Fin d1 → Fin d2 → EReal} {b2 b2' : Fin d2 → EReal} {W3 W3' : Fin d2 → Fin d3 → EReal} {b3 b3' : Fin d3 → EReal}
    {w4 w4' : Fin d3 → EReal} {c4 c4' f f' : EReal} {e e' : Fin d0 → EReal}
    (h1 : ∀ a j, W1 a j = W1' a j) (g1 : ∀ j, b1 j = b1' j) (h2 : ∀ a j, W2 a j = W2' a j) (g2 : ∀ j, b2 j = b2' j)
    (h3 : ∀ a j, W3 a j = W3' a j) (g3 : ∀ j, b3 j = b3' j) (h4 : ∀ k, w4 k = w4' k) (g4 : c4 = c4') (hf : f = f')
    (he : ∀ a, e a = e' a) :
    predict W1 b1 W2 b2 W3 b3 w4 c4 f e = predict W1' b1' W2' b2' W3' b3' w4' c4' f' e' := by
  obtain rfl : W1 = W1' := funext fun a => funext (h1 a)
  obtain rfl : b1 = b1' := funext g1
  obtain rfl : W2 = W2' := funext fun a => funext (h2 a)
  obtain rfl : b2 = b2' := funext g2
  obtain rfl : W3 = W3' := funext fun a => funext (h3 a)
  obtain rfl : b3 = b3' := funext g3
  obtain rfl : w4 = w4' := funext h4
  obtain rfl : e = e' := funext he
  subst g4 hf
  rfl

/-- The prediction column from the arrays the region finds on core c. -/
abbrev GV (c : Dev nD) : S16384x1.Idx → EReal :=
  G (V m c main_v37) (V m c main_v36) (V m c main_v38) (V m c main_v42) (V m c main_v39) (V m c main_v43)
    (V m c main_v40) (V m c main_v44) (V m c main_v41) (V m c main_v45)

end Cert.KernelIdeal.Hand

end
-- ==== Proof.KernelFinal.lean ====
/-
  From the blocks to the array: what point t writes back is block t of the prediction column, the 16 blocks tile
  the column, so the result array after the run IS the prediction column.
-/
import proofs.«161591_j37349035606580_1_alg».proof.Proof.KernelArray

noncomputable section

namespace Cert.KernelIdeal.Hand

open Cert.KernelIdeal Cert.KernelIdeal.Gen Cert.KernelIdeal.ValueP Idealize.ShloMosaic Idealize.ShloMosaic.TcCoe
open Idealize.SL.Sem Idealize.ShloMosaic.ValueIdx Cert.DeepFM
open Idealize.ShloMosaic.Pipeline (Dat)

variable (m : (ℓ : Loc nD τ sig) → Buf (Elt Ideal) ℓ) (ρ : Dev nD → PrngReg)

/-- At row p of point t's block the body leaves the prediction for batch row 1024·t + p: the staged blocks are
    rows of the arrays the region finds. -/
theorem flushed_core (c : Dev nD) (t : Fin cfg0.N) (p : Fin 1024) (u : Fin 1)
    (e0 : win0_10.index t (0 : Fin 2) = t.val) (e1 : win0_10.index t (1 : Fin 2) = 0) :
    out0_10 (iblk m c 0 t) (iblk m c 1 t) (iblk m c 2 t) (iblk m c 3 t) (iblk m c 4 t) (iblk m c 5 t) (iblk m c 6 t)
      (iblk m c 7 t) (iblk m c 8 t) (iblk m c 9 t) (ix2 p u)
    = GV m c (((cfg0.win 10).blk t).view.emb (ix2 p u)) := by
  have hK0 : ((((cfg0.win 10).blk t).view.emb (ix2 p u) : S16384x1.Idx) 0).val = 1024 * t.val + p.val := by
    show win0_10.index t (0 : Fin 2) * 1024 + 1 * p.val = _
    rw [e0]; omega
  have hK1 : ((((cfg0.win 10).blk t).view.emb (ix2 p u) : S16384x1.Idx) 1).val = u.val := by
    show win0_10.index t (1 : Fin 2) * 1 + 1 * u.val = _
    rw [e1]; omega
  refine (out_apply (iblk m c 0 t) (iblk m c 1 t) (iblk m c 2 t) (iblk m c 3 t) (iblk m c 4 t) (iblk m c 5 t)
    (iblk m c 6 t) (iblk m c 7 t) (iblk m c 8 t) (iblk m c 9 t) p u).trans ?_
  refine predict_congr (fun a j => blk2_apply m c t (ix2 a j)) (fun j => blk3_apply m c t (ix2 (0 : Fin 1) j))
    (fun a j => blk4_apply m c t (ix2 a j)) (fun j => blk5_apply m c t (ix2 (0 : Fin 1) j))
    (fun a j => blk6_apply m c t (ix2 a j)) (fun j => blk7_apply m c t (ix2 (0 : Fin 1) j))
    (fun k => ?_) (blk9_apply m c t (ix2 (0 : Fin 1) (0 : Fin 1))) ?_ (fun a => ?_)
  · refine (blk8_apply m c t (ix2 k u)).trans
      (congrArg (V m c main_v41 : S512x1.Idx → Ideal .bf16) (funext fun a => Fin.ext ?_))
    match a with
    | ⟨0, _⟩ => rfl
    | ⟨1, _⟩ => exact hK1.symm
  · exact blk1_apply m c t (ix2 p u) (((cfg0.win 10).blk t).view.emb (ix2 p u)) hK0 hK1
  · exact blk0_apply m c t (ix2 p a) (ix2 ((((cfg0.win 10).blk t).view.emb (ix2 p u) : S16384x1.Idx) 0) a) hK0 rfl

/-- The output window's blocks never overhang the result, so what is written back is all of what the body left. -/
theorem cut10_eq (t : Fin cfg0.N) (X : Vec Ideal S1024x1 .f32) : (cfg0.win 10).cut (grid0.coords t) X = X := rfl

/-- Reading an array through point t's output block reads it at the block's rows. -/
theorem read10_apply (t : Fin cfg0.N) (X : S16384x1.Idx → EReal) (y : S1024x1.Idx) :
    ((cfg0.win 10).blk t).view.read (Elt Ideal) X y = X (((cfg0.win 10).blk t).view.emb y) := rfl

/-- What point t writes back is block t of the prediction column. -/
theorem flushed_eq (c : Dev nD) (t : Fin cfg0.N) :
    (dats m 0 c).flushed 10 t = ((cfg0.win 10).blk t).view.read (Elt Ideal) (GV m c) := by
  obtain ⟨-, -, -, -, -, -, -, -, -, -, -, -, -, -, -, -, -, -, -, -, e0, e1⟩ := idx_facts t
  rw [flushed10, cut10_eq]
  funext y
  rw [read10_apply]
  obtain ⟨p, u, hy⟩ : ∃ (p : Fin 1024) (u : Fin 1), (y : S1024x1.Idx) = ix2 p u := ⟨y 0, y 1, eq_ix2 y⟩
  rw [hy]
  exact flushed_core m c t p u e0 e1

/-- An index of the result is in point t's block iff each coordinate is in the block's range on its axis. -/
theorem mem_blk (t : Fin cfg0.N) (i : S16384x1.Idx) :
    i ∈ ((cfg0.win 10).blk t).view.set ↔ ∀ a : Fin 2, win0_10.index t a * S1024x1.size a ≤ (i a).val
      ∧ (i a).val < win0_10.index t a * S1024x1.size a + S1024x1.size a := by
  show i ∈ ((View.whole main_v46).slice (win0_10.rect t)).set ↔ _
  rw [View.set_slice_whole, Rect.mem_set_unit]
  exact Iff.rfl

/-- Row r of the result lies in the block of point r / 1024. -/
theorem cover (i : S16384x1.Idx) :
    ∃ t : Fin cfg0.N, (cfg0.win 10).flush t = true ∧ i ∈ ((cfg0.win 10).blk t).view.set := by
  have hi0 : (i 0).val < 16384 := (i 0).isLt
  have hi1 : (i 1).val < 1 := (i 1).isLt
  obtain ⟨t, ht⟩ := idx_onto ⟨(i 0).val / 1024, by omega⟩
  have ht' : t.val = (i 0).val / 1024 := ht
  obtain ⟨-, -, -, -, -, -, -, -, -, -, -, -, -, -, -, -, -, -, -, -, e0, e1⟩ := idx_facts t
  refine ⟨t, flush0_10 t, ?_⟩
  rw [mem_blk]
  intro a
  match a with
  | ⟨0, _⟩ =>
    show win0_10.index t (0 : Fin 2) * 1024 ≤ (i 0).val ∧ (i 0).val < win0_10.index t (0 : Fin 2) * 1024 + 1024
    rw [e0]; omega
  | ⟨1, _⟩ =>
    show win0_10.index t (1 : Fin 2) * 1 ≤ (i 1).val ∧ (i 1).val < win0_10.index t (1 : Fin 2) * 1 + 1
    rw [e1]; omega

/-- The result array after the run is the prediction column. -/
theorem final (c : Dev nD) : (dats m 0 c).arrAt 10 cfg0.N = GV m c :=
  (dats m 0 c).arrAt_eq_of_cover 10 (GV m c) (fun t _ => flushed_eq m c t) cover

end Cert.KernelIdeal.Hand

end
-- ==== Proof.KernelChain.lean ====
/-
  The arrays the kernel region finds when it is entered, as terms of the arguments: before the region the host
  computes the same embedding rows, first-order term and whole-batch correction as the model does, adds them
  into the per-row offset column (bias + lin) + ½·total, narrows the embedding and the four weight matrices to the
  shorter float format, and lays each bias vector out as one row.
-/
import proofs.«161591_j37349035606580_1_alg».proof.Proof.Gen.KernelIdeal.Frame
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The category ids read as 32-bit words. -/
def ids (x : FVec F S16384x4 .f32) : IVec S16384x4 32 := fptosi 32 x

/-- An index with the table's length added where it is negative. -/
def wrap (i : IVec S16384x4 32) : IVec S16384x4 32 :=
  select (cmpi .slt i (broadcastInDim S16384x4 ![] bcast_S_S16384x4 (constantI S_ 32 0#32)))
    (addi i (broadcastInDim S16384x4 ![] bcast_S_S16384x4 (constantI S_ 32 38279#32))) i

/-- The four embedding rows of each batch row, gathered at the raw ids and laid side by side: [16384, 512]. -/
def emb (x : FVec F S16384x4 .f32) (tab : FVec F S38279x128 .f32) : FVec F S16384x512 .f32 :=
  shapeCast S16384x512
    (Host.gather gather_S38279x128_S16384x4x1_S16384x4x128_2_0_n_n_0_2_1128 tab
      (broadcastInDim S16384x4x1 ![0, 1] bcast_S16384x4_S16384x4x1_0_1 (wrap (ids x))))
    shapeCasts_S16384x4x128_S16384x512

/-- The per-field offsets of the global ids, on every batch row. -/
def fieldOffsets : IVec S16384x4 32 :=
  broadcastInDim S16384x4 ![0, 1] bcast_S1x4_S16384x4_0_1
    (broadcastInDim S1x4 ![1] bcast_S4_S1x4_1 (fun i => lit0 (S4.rowMajor i)))

/-- The first-order term: per batch row, the sum over the four fields of the weight at the global id. -/
def lin (x : FVec F S16384x4 .f32) (fc : FVec F S38279x1 .f32) : FVec F S16384 .f32 :=
  Host.reduceAdd
    (Host.gather gather_S38279x1_S16384x4x2_S16384x4_n_01_n_n_01_2_11 fc
      (concatenate S16384x4x2 2
        [⟨S16384x4x1, broadcastInDim S16384x4x1 ![0, 1] bcast_S16384x4_S16384x4x1_0_1 (wrap (addi (ids x) fieldOffsets))⟩,
         ⟨S16384x4x1, broadcastInDim S16384x4x1 ![0, 1] bcast_S16384x4_S16384x4x1_0_1
            (id (broadcastInDim S16384x4 ![] bcast_S_S16384x4 (constantI S_ 32 0#32)))⟩]
        concatenates_S16384x4x1_S16384x4x1_S16384x4x2_d2))
    (constant S_ .f32 0x00000000#32) reducesTo_S16384x4_S16384_d1 h_S_

/-- The sum of each row of a [16384, 512] array. -/
def rowSum (E : FVec F S16384x512 .f32) : FVec F S16384 .f32 :=
  Host.reduceAdd E (constant S_ .f32 0x00000000#32) reducesTo_S16384x512_S16384_d1 h_S_

/-- The second-order correction, ONE number for the whole batch. -/
def total (E : FVec F S16384x512 .f32) : FVec F S_ .f32 :=
  Host.reduceAdd (subf (mulf (rowSum E) (rowSum E)) (rowSum (mulf E E)))
    (constant S_ .f32 0x00000000#32) reducesTo_S16384_S_d0 h_S_

/-- The per-row offset as a column: (bias + lin) + ½ · total. -/
def offset (bias : FVec F S1 .f32) (l : FVec F S16384 .f32) (t : FVec F S_ .f32) : FVec F S16384x1 .f32 :=
  shapeCast S16384x1
    (addf (addf (broadcastInDim S16384 ![] bcast_S_S16384 (shapeCast S_ bias shapeCasts_S1_S_)) l)
      (broadcastInDim S16384 ![] bcast_S_S16384 (mulf (constant S_ .f32 0x3F000000#32) t)))
    shapeCasts_S16384_S16384x1

variable (m : (ℓ : Loc nD τ sig) → Buf (Elt F) ℓ)

/-- The first window's array: the embedding, narrowed. -/
theorem V_emb (c : Dev nD) :
    (V m c main_v37 : S16384x512.Idx → F .bf16)
      = truncf .bf16 (emb (m ((c : Thread nD τ).loc main_arg0)) (m ((c : Thread nD τ).loc main_arg3))) bitsLt_bf16_f32 := by
  dsimp only [V, hostOps0]
  after_results_simp <;> rfl

set_option maxHeartbeats 4000000 in
/-- The second window's array: the per-row offset column. -/
theorem V_offset (c : Dev nD) :
    (V m c main_v36 : S16384x1.Idx → F .f32)
      = offset (m ((c : Thread nD τ).loc main_arg1))
          (lin (m ((c : Thread nD τ).loc main_arg0)) (m ((c : Thread nD τ).loc main_arg2)))
          (total (emb (m ((c : Thread nD τ).loc main_arg0)) (m ((c : Thread nD τ).loc main_arg3)))) := by
  dsimp only [V, hostOps0]
  after_results_simp <;> rfl

/-- The four weight matrices, narrowed. -/
theorem V_w1 (c : Dev nD) :
    (V m c main_v38 : S512x2048.Idx → F .bf16) = truncf .bf16 (m ((c : Thread nD τ).loc main_arg4)) bitsLt_bf16_f32 := by
  dsimp only [V, hostOps0]
  after_results_simp <;> rfl
theorem V_w2 (c : Dev nD) :
    (V m c main_v39 : S2048x1024.Idx → F .bf16) = truncf .bf16 (m ((c : Thread nD τ).loc main_arg6)) bitsLt_bf16_f32 := by
  dsimp only [V, hostOps0]
  after_results_simp <;> rfl
theorem V_w3 (c : Dev nD) :
    (V m c main_v40 : S1024x512.Idx → F .bf16) = truncf .bf16 (m ((c : Thread nD τ).loc main_arg8)) bitsLt_bf16_f32 := by
  dsimp only [V, hostOps0]
  after_results_simp <;> rfl
theorem V_w4 (c : Dev nD) :
    (V m c main_v41 : S512x1.Idx → F .bf16) = truncf .bf16 (m ((c : Thread nD τ).loc main_arg10)) bitsLt_bf16_f32 := by
  dsimp only [V, hostOps0]
  after_results_simp <;> rfl

/-- The four bias vectors, each laid out as one row. -/
theorem V_b1 (c : Dev nD) :
    (V m c main_v42 : S1x2048.Idx → F .f32) = shapeCast S1x2048 (m ((c : Thread nD τ).loc main_arg5)) shapeCasts_S2048_S1x2048 := by
  dsimp only [V, hostOps0]
  after_results_simp <;> rfl
theorem V_b2 (c : Dev nD) :
    (V m c main_v43 : S1x1024.Idx → F .f32) = shapeCast S1x1024 (m ((c : Thread nD τ).loc main_arg7)) shapeCasts_S1024_S1x1024 := by
  dsimp only [V, hostOps0]
  after_results_simp <;> rfl
theorem V_b3 (c : Dev nD) :
    (V m c main_v44 : S1x512.Idx → F .f32) = shapeCast S1x512 (m ((c : Thread nD τ).loc main_arg9)) shapeCasts_S512_S1x512 := by
  dsimp only [V, hostOps0]
  after_results_simp <;> rfl
theorem V_b4 (c : Dev nD) :
    (V m c main_v45 : S1x1.Idx → F .f32) = shapeCast S1x1 (m ((c : Thread nD τ).loc main_arg11)) shapeCasts_S1_S1x1 := by
  dsimp only [V, hostOps0]
  after_results_simp <;> rfl

end Cert.KernelIdeal.Hand

end
-- ==== Proof.KernelResult.lean ====
/-
  The kernel's run, read: the result array after the run as ONE function of the twelve arguments — the prediction
  column over the embedding, the offset column, the weights and the bias rows as the host lays them out before the
  region.
-/
import proofs.«161591_j37349035606580_1_alg».proof.Proof.KernelFinal
import proofs.«161591_j37349035606580_1_alg».proof.Proof.KernelChain

noncomputable section

namespace Cert.KernelIdeal.Hand

open Cert.KernelIdeal Cert.KernelIdeal.Gen Cert.KernelIdeal.ValueP Idealize.ShloMosaic Idealize.ShloMosaic.TcCoe
open Idealize.SL.Sem Idealize.ShloMosaic.ValueIdx Cert.DeepFM

/-- The kernel's result as a function of its arguments. -/
def kresult (x : FVec Ideal S16384x4 .f32) (bias : FVec Ideal S1 .f32) (fc : FVec Ideal S38279x1 .f32)
    (tab : FVec Ideal S38279x128 .f32) (W1 : FVec Ideal S512x2048 .f32) (b1 : FVec Ideal S2048 .f32)
    (W2 : FVec Ideal S2048x1024 .f32) (b2 : FVec Ideal S1024 .f32) (W3 : FVec Ideal S1024x512 .f32) (b3 : FVec Ideal S512 .f32)
    (W4 : FVec Ideal S512x1 .f32) (b4 : FVec Ideal S1 .f32) : S16384x1.Idx → EReal :=
  G (truncf .bf16 (emb x tab) bitsLt_bf16_f32) (offset bias (lin x fc) (total (emb x tab)))
    (truncf .bf16 W1 bitsLt_bf16_f32) (shapeCast S1x2048 b1 shapeCasts_S2048_S1x2048)
    (truncf .bf16 W2 bitsLt_bf16_f32) (shapeCast S1x1024 b2 shapeCasts_S1024_S1x1024)
    (truncf .bf16 W3 bitsLt_bf16_f32) (shapeCast S1x512 b3 shapeCasts_S512_S1x512)
    (truncf .bf16 W4 bitsLt_bf16_f32) (shapeCast S1x1 b4 shapeCasts_S1_S1x1)

variable (m : (ℓ : Loc nD τ sig) → Buf (Elt Ideal) ℓ) (ρ : Dev nD → PrngReg)

/-- The prediction column over the arrays the region finds is `kresult` of the arguments. -/
theorem GV_eq (c : Dev nD) :
    GV m c = kresult (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) := by
  unfold kresult
  show G (V m c main_v37) (V m c main_v36) (V m c main_v38) (V m c main_v42) (V m c main_v39) (V m c main_v43)
    (V m c main_v40) (V m c main_v44) (V m c main_v41) (V m c main_v45) = _
  rw [V_emb, V_offset, V_w1, V_b1, V_w2, V_b2, V_w3, V_b3, V_w4, V_b4]

/-- Every weakly fair execution of the kernel's program terminates with the result array at `kresult` of the
    arguments and the arguments unchanged. -/
theorem run : θ_run defs (onTc (τ := τ) (main (F := Ideal))) ⟨m, fun _ => 0, ρ⟩ fun r => ∀ c : Dev nD,
      r.2.mem ((c : Thread nD τ).loc main_v46)
        = kresult (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
            (m ((c : Thread nD τ).loc main_arg8)) (m ((c : Thread nD τ).loc main_arg9)) (m ((c : Thread nD τ).loc main_arg10))
            (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans ((final m c).trans (GV_eq m c)), (h c).2⟩) (run_blocks m ρ)

end Cert.KernelIdeal.Hand

end
-- ==== Proof.RefOps.lean ====
import proofs.«161591_j37349035606580_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 83 operations, in order. -/
abbrev ops : List (HloOp τ sig (Elt F)) :=
  [ nullary main_c (fun i => lit0 (S4.rowMajor i)),
    unary main_arg0 main_v0 (fptosi 32 : (⟨S16384x4, .f32⟩ : BufTy).Contents (Elt F) → (⟨S16384x4, .i32⟩ : BufTy).Contents (Elt F)),
    nullary main_c_0 (constantI S_ 32 0#32),
    unary main_c_0 main_v1 (broadcastInDim S16384x4 ![] bcast_S_S16384x4 : (⟨S_, .i32⟩ : BufTy).Contents (Elt F) → (⟨S16384x4, .i32⟩ : BufTy).Contents (Elt F)),
    binary main_v0 main_v1 main_v2 (cmpi .slt : (⟨S16384x4, .i32⟩ : BufTy).Contents (Elt F) → (⟨S16384x4, .i32⟩ : BufTy).Contents (Elt F) → (⟨S16384x4, .i1⟩ : BufTy).Contents (Elt F)),
    nullary main_c_1 (constantI S_ 32 38279#32),
    unary main_c_1 main_v3 (broadcastInDim S16384x4 ![] bcast_S_S16384x4 : (⟨S_, .i32⟩ : BufTy).Contents (Elt F) → (⟨S16384x4, .i32⟩ : BufTy).Contents (Elt F)),
    binary main_v0 main_v3 main_v4 (addi : (⟨S16384x4, .i32⟩ : BufTy).Contents (Elt F) → (⟨S16384x4, .i32⟩ : BufTy).Contents (Elt F) → (⟨S16384x4, .i32⟩ : BufTy).Contents (Elt F)),
    ternary main_v2 main_v4 main_v0 main_v5 (select : (⟨S16384x4, .i1⟩ : BufTy).Contents (Elt F) → (⟨S16384x4, .i32⟩ : BufTy).Contents (Elt F) → (⟨S16384x4, .i32⟩ : BufTy).Contents (Elt F) → (⟨S16384x4, .i32⟩ : BufTy).Contents (Elt F)),
    unary main_v5 main_v6 (broadcastInDim S16384x4x1 ![0, 1] bcast_S16384x4_S16384x4x1_0_1 : (⟨S16384x4, .i32⟩ : BufTy).Contents (Elt F) → (⟨S16384x4x1, .i32⟩ : BufTy).Contents (Elt F)),
    binary main_arg3 main_v6 main_v7 ((fun x i => Host.gather gather_S38279x128_S16384x4x1_S16384x4x128_2_0_n_n_0_2_1128 x i) : (⟨S38279x128, .f32⟩ : BufTy).Contents (Elt F) → (⟨S16384x4x1, .i32⟩ : BufTy).Contents (Elt F) → (⟨S16384x4x128, .f32⟩ : BufTy).Contents (Elt F)),
    reshape main_v7 main_v8 rfl shapeCasts_S16384x4x128_S16384x512,
    unary main_c main_v9 (broadcastInDim S1x4 ![1] bcast_S4_S1x4_1 : (⟨S4, .i32⟩ : BufTy).Contents (Elt F) → (⟨S1x4, .i32⟩ : BufTy).Contents (Elt F)),
    unary main_v9 main_v10 (broadcastInDim S16384x4 ![0, 1] bcast_S1x4_S16384x4_0_1 : (⟨S1x4, .i32⟩ : BufTy).Contents (Elt F) → (⟨S16384x4, .i32⟩ : BufTy).Contents (Elt F)),
    binary main_v0 main_v10 main_v11 (addi : (⟨S16384x4, .i32⟩ : BufTy).Contents (Elt F) → (⟨S16384x4, .i32⟩ : BufTy).Contents (Elt F) → (⟨S16384x4, .i32⟩ : BufTy).Contents (Elt F)),
    nullary main_c_2 (constantI S_ 32 0#32),
    unary main_c_2 main_v12 (broadcastInDim S16384x4 ![] bcast_S_S16384x4 : (⟨S_, .i32⟩ : BufTy).Contents (Elt F) → (⟨S16384x4, .i32⟩ : BufTy).Contents (Elt F)),
    binary main_v11 main_v12 main_v13 (cmpi .slt : (⟨S16384x4, .i32⟩ : BufTy).Contents (Elt F) → (⟨S16384x4, .i32⟩ : BufTy).Contents (Elt F) → (⟨S16384x4, .i1⟩ : BufTy).Contents (Elt F)),
    nullary main_c_3 (constantI S_ 32 38279#32),
    unary main_c_3 main_v14 (broadcastInDim S16384x4 ![] bcast_S_S16384x4 : (⟨S_, .i32⟩ : BufTy).Contents (Elt F) → (⟨S16384x4, .i32⟩ : BufTy).Contents (Elt F)),
    binary main_v11 main_v14 main_v15 (addi : (⟨S16384x4, .i32⟩ : BufTy).Contents (Elt F) → (⟨S16384x4, .i32⟩ : BufTy).Contents (Elt F) → (⟨S16384x4, .i32⟩ : BufTy).Contents (Elt F)),
    ternary main_v13 main_v15 main_v11 main_v16 (select : (⟨S16384x4, .i1⟩ : BufTy).Contents (Elt F) → (⟨S16384x4, .i32⟩ : BufTy).Contents (Elt F) → (⟨S16384x4, .i32⟩ : BufTy).Contents (Elt F) → (⟨S16384x4, .i32⟩ : BufTy).Contents (Elt F)),
    nullary main_c_4 (constantI S_ 32 0#32),
    unary main_c_4 main_v17 (broadcastInDim S16384x4 ![] bcast_S_S16384x4 : (⟨S_, .i32⟩ : BufTy).Contents (Elt F) → (⟨S16384x4, .i32⟩ : BufTy).Contents (Elt F)),
    unary main_v17 main_v18 (id : (⟨S16384x4, .i32⟩ : BufTy).Contents (Elt F) → (⟨S16384x4, .i32⟩ : BufTy).Contents (Elt F)),
    unary main_v16 main_v19 (broadcastInDim S16384x4x1 ![0, 1] bcast_S16384x4_S16384x4x1_0_1 : (⟨S16384x4, .i32⟩ : BufTy).Contents (Elt F) → (⟨S16384x4x1, .i32⟩ : BufTy).Contents (Elt F)),
    unary main_v18 main_v20 (broadcastInDim S16384x4x1 ![0, 1] bcast_S16384x4_S16384x4x1_0_1 : (⟨S16384x4, .i32⟩ : BufTy).Contents (Elt F) → (⟨S16384x4x1, .i32⟩ : BufTy).Contents (Elt F)),
    binary main_v19 main_v20 main_v21 ((fun a b => concatenate S16384x4x2 2 [⟨S16384x4x1, a⟩, ⟨S16384x4x1, b⟩] concatenates_S16384x4x1_S16384x4x1_S16384x4x2_d2) : (⟨S16384x4x1, .i32⟩ : BufTy).Contents (Elt F) → (⟨S16384x4x1, .i32⟩ : BufTy).Contents (Elt F) → (⟨S16384x4x2, .i32⟩ : BufTy).Contents (Elt F)),
    binary main_arg2 main_v21 main_v22 ((fun x i => Host.gather gather_S38279x1_S16384x4x2_S16384x4_n_01_n_n_01_2_11 x i) : (⟨S38279x1, .f32⟩ : BufTy).Contents (Elt F) → (⟨S16384x4x2, .i32⟩ : BufTy).Contents (Elt F) → (⟨S16384x4, .f32⟩ : BufTy).Contents (Elt F)),
    nullary main_cst (constant S_ .f32 0x00000000#32),
    binary main_v22 main_cst main_v23 ((fun x v => Host.reduceAdd x v reducesTo_S16384x4_S16384_d1 h_S_) : (⟨S16384x4, .f32⟩ : BufTy).Contents (Elt F) → (⟨S_, .f32⟩ : BufTy).Contents (Elt F) → (⟨S16384, .f32⟩ : BufTy).Contents (Elt F)),
    unary main_arg1 main_v24 (broadcastInDim S16384 ![0] bcast_S1_S16384_0 : (⟨S1, .f32⟩ : BufTy).Contents (Elt F) → (⟨S16384, .f32⟩ : BufTy).Contents (Elt F)),
    binary main_v24 main_v23 main_v25 (addf : (⟨S16384, .f32⟩ : BufTy).Contents (Elt F) → (⟨S16384, .f32⟩ : BufTy).Contents (Elt F) → (⟨S16384, .f32⟩ : BufTy).Contents (Elt F)),
    nullary main_cst_5 (constant S_ .f32 0x00000000#32),
    binary main_v8 main_cst_5 main_v26 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    binary main_v26 main_v26 main_v27 (mulf : (⟨S16384, .f32⟩ : BufTy).Contents (Elt F) → (⟨S16384, .f32⟩ : BufTy).Contents (Elt F) → (⟨S16384, .f32⟩ : BufTy).Contents (Elt F)),
    binary main_v8 main_v8 main_v28 (mulf : (⟨S16384x512, .f32⟩ : BufTy).Contents (Elt F) → (⟨S16384x512, .f32⟩ : BufTy).Contents (Elt F) → (⟨S16384x512, .f32⟩ : BufTy).Contents (Elt F)),
    nullary main_cst_6 (constant S_ .f32 0x00000000#32),
    binary main_v28 main_cst_6 main_v29 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    binary main_v27 main_v29 main_v30 (subf : (⟨S16384, .f32⟩ : BufTy).Contents (Elt F) → (⟨S16384, .f32⟩ : BufTy).Contents (Elt F) → (⟨S16384, .f32⟩ : BufTy).Contents (Elt F)),
    nullary main_cst_7 (constant S_ .f32 0x00000000#32),
    binary main_v30 main_cst_7 main_v31 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    unary main_v31 main_v32 (broadcastInDim S1 ![] bcast_S_S1 : (⟨S_, .f32⟩ : BufTy).Contents (Elt F) → (⟨S1, .f32⟩ : BufTy).Contents (Elt F)),
    nullary main_cst_8 (constant S_ .f32 0x3F000000#32),
    unary main_cst_8 main_v33 (broadcastInDim S1 ![] bcast_S_S1 : (⟨S_, .f32⟩ : BufTy).Contents (Elt F) → (⟨S1, .f32⟩ : BufTy).Contents (Elt F)),
    binary main_v33 main_v32 main_v34 (mulf : (⟨S1, .f32⟩ : BufTy).Contents (Elt F) → (⟨S1, .f32⟩ : BufTy).Contents (Elt F) → (⟨S1, .f32⟩ : BufTy).Contents (Elt F)),
    unary main_v34 main_v35 (broadcastInDim S16384 ![0] bcast_S1_S16384_0 : (⟨S1, .f32⟩ : BufTy).Contents (Elt F) → (⟨S16384, .f32⟩ : BufTy).Contents (Elt F)),
    binary main_v25 main_v35 main_v36 (addf : (⟨S16384, .f32⟩ : BufTy).Contents (Elt F) → (⟨S16384, .f32⟩ : BufTy).Contents (Elt F) → (⟨S16384, .f32⟩ : BufTy).Contents (Elt F)),
    unary main_v36 main_v37 (broadcastInDim S16384x1 ![0] bcast_S16384_S16384x1_0 : (⟨S16384, .f32⟩ : BufTy).Contents (Elt F) → (⟨S16384x1, .f32⟩ : BufTy).Contents (Elt F)),
    binary main_v8 main_arg4 main_v38 ((fun l r => Host.dotGeneral dot_S16384x512_S512x2048_S16384x2048_1_0_0_1_n_n none l r) : (⟨S16384x512, .f32⟩ : BufTy).Contents (Elt F) → (⟨S512x2048, .f32⟩ : BufTy).Contents (Elt F) → (⟨S16384x2048, .f32⟩ : BufTy).Contents (Elt F)),
    unary main_arg5 main_v39 (broadcastInDim S1x2048 ![1] bcast_S2048_S1x2048_1 : (⟨S2048, .f32⟩ : BufTy).Contents (Elt F) → (⟨S1x2048, .f32⟩ : BufTy).Contents (Elt F)),
    unary main_v39 main_v40 (broadcastInDim S16384x2048 ![0, 1] bcast_S1x2048_S16384x2048_0_1 : (⟨S1x2048, .f32⟩ : BufTy).Contents (Elt F) → (⟨S16384x2048, .f32⟩ : BufTy).Contents (Elt F)),
    binary main_v38 main_v40 main_v41 (addf : (⟨S16384x2048, .f32⟩ : BufTy).Contents (Elt F) → (⟨S16384x2048, .f32⟩ : BufTy).Contents (Elt F) → (⟨S16384x2048, .f32⟩ : BufTy).Contents (Elt F)),
    TRef.nullary main_call0.cst (constant S_ .f32 0x00000000#32),
    TRef.unary main_call0.cst main_call0.v0 (broadcastInDim S16384x2048 ![] bcast_S_S16384x2048),
    TRef.binary (.of main_v41) main_call0.v0 main_call0.v1 maximumf,
    binary main_v42 main_arg6 main_v43 ((fun l r => Host.dotGeneral dot_S16384x2048_S2048x1024_S16384x1024_1_0_0_1_n_n none l r) : (⟨S16384x2048, .f32⟩ : BufTy).Contents (Elt F) → (⟨S2048x1024, .f32⟩ : BufTy).Contents (Elt F) → (⟨S16384x1024, .f32⟩ : BufTy).Contents (Elt F)),
    unary main_arg7 main_v44 (broadcastInDim S1x1024 ![1] bcast_S1024_S1x1024_1 : (⟨S1024, .f32⟩ : BufTy).Contents (Elt F) → (⟨S1x1024, .f32⟩ : BufTy).Contents (Elt F)),
    unary main_v44 main_v45 (broadcastInDim S16384x1024 ![0, 1] bcast_S1x1024_S16384x1024_0_1 : (⟨S1x1024, .f32⟩ : BufTy).Contents (Elt F) → (⟨S16384x1024, .f32⟩ : BufTy).Contents (Elt F)),
    binary main_v43 main_v45 main_v46 (addf : (⟨S16384x1024, .f32⟩ : BufTy).Contents (Elt F) → (⟨S16384x1024, .f32⟩ : BufTy).Contents (Elt F) → (⟨S16384x1024, .f32⟩ : BufTy).Contents (Elt F)),
    TRef.nullary main_call1.cst (constant S_ .f32 0x00000000#32),
    TRef.unary main_call1.cst main_call1.v0 (broadcastInDim S16384x1024 ![] bcast_S_S16384x1024),
    TRef.binary (.of main_v46) main_call1.v0 main_call1.v1 maximumf,
    binary main_v47 main_arg8 main_v48 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
    unary main_arg9 main_v49 (broadcastInDim S1x512 ![1] bcast_S512_S1x512_1 : (⟨S512, .f32⟩ : BufTy).Contents (Elt F) → (⟨S1x512, .f32⟩ : BufTy).Contents (Elt F)),
    unary main_v49 main_v50 (broadcastInDim S16384x512 ![0, 1] bcast_S1x512_S16384x512_0_1 : (⟨S1x512, .f32⟩ : BufTy).Contents (Elt F) → (⟨S16384x512, .f32⟩ : BufTy).Contents (Elt F)),
    binary main_v48 main_v50 main_v51 (addf : (⟨S16384x512, .f32⟩ : BufTy).Contents (Elt F) → (⟨S16384x512, .f32⟩ : BufTy).Contents (Elt F) → (⟨S16384x512, .f32⟩ : BufTy).Contents (Elt F)),
    TRef.nullary main_call2.cst (constant S_ .f32 0x00000000#32),
    TRef.unary main_call2.cst main_call2.v0 (broadcastInDim S16384x512 ![] bcast_S_S16384x512),
    TRef.binary (.of main_v51) main_call2.v0 main_call2.v1 maximumf,
    binary main_v52 main_arg10 main_v53 ((fun l r => Host.dotGeneral dot_S16384x512_S512x1_S16384x1_1_0_0_1_n_n none l r) : (⟨S16384x512, .f32⟩ : BufTy).Contents (Elt F) → (⟨S512x1, .f32⟩ : BufTy).Contents (Elt F) → (⟨S16384x1, .f32⟩ : BufTy).Contents (Elt F)),
    unary main_arg11 main_v54 (broadcastInDim S1x1 ![1] bcast_S1_S1x1_1 : (⟨S1, .f32⟩ : BufTy).Contents (Elt F) → (⟨S1x1, .f32⟩ : BufTy).Contents (Elt F)),
    unary main_v54 main_v55 (broadcastInDim S16384x1 ![0, 1] bcast_S1x1_S16384x1_0_1 : (⟨S1x1, .f32⟩ : BufTy).Contents (Elt F) → (⟨S16384x1, .f32⟩ : BufTy).Contents (Elt F)),
    binary main_v53 main_v55 main_v56 (addf : (⟨S16384x1, .f32⟩ : BufTy).Contents (Elt F) → (⟨S16384x1, .f32⟩ : BufTy).Contents (Elt F) → (⟨S16384x1, .f32⟩ : BufTy).Contents (Elt F)),
    binary main_v37 main_v56 main_v57 (addf : (⟨S16384x1, .f32⟩ : BufTy).Contents (Elt F) → (⟨S16384x1, .f32⟩ : BufTy).Contents (Elt F) → (⟨S16384x1, .f32⟩ : BufTy).Contents (Elt F)),
    unary main_v57 main_v58 (Host.negf : (⟨S16384x1, .f32⟩ : BufTy).Contents (Elt F) → (⟨S16384x1, .f32⟩ : BufTy).Contents (Elt F)),
    unary main_v58 main_v59 (Host.exp : (⟨S16384x1, .f32⟩ : BufTy).Contents (Elt F) → (⟨S16384x1, .f32⟩ : BufTy).Contents (Elt F)),
    nullary main_cst_9 (constant S_ .f32 0x3F800000#32),
    unary main_cst_9 main_v60 (broadcastInDim S16384x1 ![] bcast_S_S16384x1 : (⟨S_, .f32⟩ : BufTy).Contents (Elt F) → (⟨S16384x1, .f32⟩ : BufTy).Contents (Elt F)),
    binary main_v60 main_v59 main_v61 (addf : (⟨S16384x1, .f32⟩ : BufTy).Contents (Elt F) → (⟨S16384x1, .f32⟩ : BufTy).Contents (Elt F) → (⟨S16384x1, .f32⟩ : BufTy).Contents (Elt F)),
    nullary main_cst_10 (constant S_ .f32 0x3F800000#32),
    unary main_cst_10 main_v62 (broadcastInDim S16384x1 ![] bcast_S_S16384x1 : (⟨S_, .f32⟩ : BufTy).Contents (Elt F) → (⟨S16384x1, .f32⟩ : BufTy).Contents (Elt F)),
    binary main_v62 main_v61 main_v63 (Host.divf : (⟨S16384x1, .f32⟩ : BufTy).Contents (Elt F) → (⟨S16384x1, .f32⟩ : BufTy).Contents (Elt F) → (⟨S16384x1, .f32⟩ : BufTy).Contents (Elt F)) ]

end Cert.ReferenceIdeal.Hand

end
-- ==== Proof.RefRun.lean ====
/-
  The reference program read back: its @main is a straight line of host operations (the three rectifier calls
  inlined at their call sites), so every weakly fair execution terminates with the result buffer at the
  operations' composed term of the arguments, and the arguments unchanged.

  The composed term is named in pieces that follow the model: the embedding rows gathered and laid side by side
  (emb), the first-order term (lin: the sum over the four fields of the gathered weights), the scalar second-order
  correction (total: the sum over the whole batch of (row sum)² − (row sum of squares)), the per-row offset
  (offset: bias + lin + ½·total as a column), three rectified dense layers, and the logistic output spelled
  1 / (1 + exp (−·)).
-/
import proofs.«161591_j37349035606580_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The result as a term of the arguments -/

/-- The category ids read as 32-bit words. -/
def ids (x : FVec F S16384x4 .f32) : IVec S16384x4 32 := fptosi 32 x

/-- An index with the table's length added where it is negative (jnp's reading of a negative index). -/
def wrap (i : IVec S16384x4 32) : IVec S16384x4 32 :=
  select (cmpi .slt i (broadcastInDim S16384x4 ![] bcast_S_S16384x4 (constantI S_ 32 0#32)))
    (addi i (broadcastInDim S16384x4 ![] bcast_S_S16384x4 (constantI S_ 32 38279#32))) i

/-- The four embedding rows of each batch row, gathered at the raw ids and laid side by side: [16384, 512]. -/
def emb (x : FVec F S16384x4 .f32) (tab : FVec F S38279x128 .f32) : FVec F S16384x512 .f32 :=
  shapeCast S16384x512
    (Host.gather gather_S38279x128_S16384x4x1_S16384x4x128_2_0_n_n_0_2_1128 tab
      (broadcastInDim S16384x4x1 ![0, 1] bcast_S16384x4_S16384x4x1_0_1 (wrap (ids x))))
    shapeCasts_S16384x4x128_S16384x512

/-- The per-field offsets of the global ids, on every batch row. -/
def fieldOffsets : IVec S16384x4 32 :=
  broadcastInDim S16384x4 ![0, 1] bcast_S1x4_S16384x4_0_1
    (broadcastInDim S1x4 ![1] bcast_S4_S1x4_1 (fun i => lit0 (S4.rowMajor i)))

/-- The first-order term: per batch row, the sum over the four fields of the weight at the global id. -/
def lin (x : FVec F S16384x4 .f32) (fc : FVec F S38279x1 .f32) : FVec F S16384 .f32 :=
  Host.reduceAdd
    (Host.gather gather_S38279x1_S16384x4x2_S16384x4_n_01_n_n_01_2_11 fc
      (concatenate S16384x4x2 2
        [⟨S16384x4x1, broadcastInDim S16384x4x1 ![0, 1] bcast_S16384x4_S16384x4x1_0_1 (wrap (addi (ids x) fieldOffsets))⟩,
         ⟨S16384x4x1, broadcastInDim S16384x4x1 ![0, 1] bcast_S16384x4_S16384x4x1_0_1
            (id (broadcastInDim S16384x4 ![] bcast_S_S16384x4 (constantI S_ 32 0#32)))⟩]
        concatenates_S16384x4x1_S16384x4x1_S16384x4x2_d2))
    (constant S_ .f32 0x00000000#32) reducesTo_S16384x4_S16384_d1 h_S_

/-- The sum of each row of a [16384, 512] array. -/
def rowSum (E : FVec F S16384x512 .f32) : FVec F S16384 .f32 :=
  Host.reduceAdd E (constant S_ .f32 0x00000000#32) reducesTo_S16384x512_S16384_d1 h_S_

/-- The second-order correction, ONE number for the whole batch: Σ over the rows of (row sum)² − (row sum of squares). -/
def total (E : FVec F S16384x512 .f32) : FVec F S_ .f32 :=
  Host.reduceAdd (subf (mulf (rowSum E) (rowSum E)) (rowSum (mulf E E)))
    (constant S_ .f32 0x00000000#32) reducesTo_S16384_S_d0 h_S_

/-- The per-row offset as a column: (bias + lin) + ½ · total. -/
def offset (bias : FVec F S1 .f32) (l : FVec F S16384 .f32) (t : FVec F S_ .f32) : FVec F S16384x1 .f32 :=
  broadcastInDim S16384x1 ![0] bcast_S16384_S16384x1_0
    (addf (addf (broadcastInDim S16384 ![0] bcast_S1_S16384_0 bias) l)
      (broadcastInDim S16384 ![0] bcast_S1_S16384_0
        (mulf (broadcastInDim S1 ![] bcast_S_S1 (constant S_ .f32 0x3F000000#32)) (broadcastInDim S1 ![] bcast_S_S1 t))))

/-- The first rectified layer on the whole batch. -/
def hidden1 (E : FVec F S16384x512 .f32) (W : FVec F S512x2048 .f32) (b : FVec F S2048 .f32) : FVec F S16384x2048 .f32 :=
  maximumf
    (addf (Host.dotGeneral dot_S16384x512_S512x2048_S16384x2048_1_0_0_1_n_n none E W)
      (broadcastInDim S16384x2048 ![0, 1] bcast_S1x2048_S16384x2048_0_1 (broadcastInDim S1x2048 ![1] bcast_S2048_S1x2048_1 b)))
    (broadcastInDim S16384x2048 ![] bcast_S_S16384x2048 (constant S_ .f32 0x00000000#32))

/-- The second. -/
def hidden2 (H : FVec F S16384x2048 .f32) (W : FVec F S2048x1024 .f32) (b : FVec F S1024 .f32) : FVec F S16384x1024 .f32 :=
  maximumf
    (addf (Host.dotGeneral dot_S16384x2048_S2048x1024_S16384x1024_1_0_0_1_n_n none H W)
      (broadcastInDim S16384x1024 ![0, 1] bcast_S1x1024_S16384x1024_0_1 (broadcastInDim S1x1024 ![1] bcast_S1024_S1x1024_1 b)))
    (broadcastInDim S16384x1024 ![] bcast_S_S16384x1024 (constant S_ .f32 0x00000000#32))

/-- The third. -/
def hidden3 (H : FVec F S16384x1024 .f32) (W : FVec F S1024x512 .f32) (b : FVec F S512 .f32) : FVec F S16384x512 .f32 :=
  maximumf
    (addf (Host.dotGeneral dot_S16384x1024_S1024x512_S16384x512_1_0_0_1_n_n none H W)
      (broadcastInDim S16384x512 ![0, 1] bcast_S1x512_S16384x512_0_1 (broadcastInDim S1x512 ![1] bcast_S512_S1x512_1 b)))
    (broadcastInDim S16384x512 ![] bcast_S_S16384x512 (constant S_ .f32 0x00000000#32))

/-- The output column: 1 / (1 + exp (−(offset + (H · W + b)))). -/
def output (fm : FVec F S16384x1 .f32) (H : FVec F S16384x512 .f32) (W : FVec F S512x1 .f32) (b : FVec F S1 .f32) :
    FVec F S16384x1 .f32 :=
  Host.divf (broadcastInDim S16384x1 ![] bcast_S_S16384x1 (constant S_ .f32 0x3F800000#32))
    (addf (broadcastInDim S16384x1 ![] bcast_S_S16384x1 (constant S_ .f32 0x3F800000#32))
      (Host.exp (Host.negf (addf fm
        (addf (Host.dotGeneral dot_S16384x512_S512x1_S16384x1_1_0_0_1_n_n none H W)
          (broadcastInDim S16384x1 ![0, 1] bcast_S1x1_S16384x1_0_1 (broadcastInDim S1x1 ![1] bcast_S1_S1x1_1 b)))))))

/-- The reference's result as one term of its twelve arguments. -/
def result (x : FVec F S16384x4 .f32) (bias : FVec F S1 .f32) (fc : FVec F S38279x1 .f32) (tab : FVec F S38279x128 .f32)
    (W1 : FVec F S512x2048 .f32) (b1 : FVec F S2048 .f32) (W2 : FVec F S2048x1024 .f32) (b2 : FVec F S1024 .f32)
    (W3 : FVec F S1024x512 .f32) (b3 : FVec F S512 .f32) (W4 : FVec F S512x1 .f32) (b4 : FVec F S1 .f32) :
    FVec F S16384x1 .f32 :=
  output (offset bias (lin x fc) (total (emb x tab)))
    (hidden3 (hidden2 (hidden1 (emb x tab) W1 b1) W2 b2) W3 b3) W4 b4

/-! ## The run -/

set_option maxRecDepth 65536 in
set_option maxHeartbeats 8000000 in
/-- @main is that straight line: the two printed windows in order, the rectifier functions unfolded at their calls
    (sequencing reassociates by computation). -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxHeartbeats 4000000 in
/-- Every operation touches TensorCore references only: the list splits into its operations, and each is one of
    five kinds of operation, every kind with its own fact. -/
theorem ops_sub : (ops : List (HloOp τ sig (Elt F))).Forall fun op => op.bufs ⊆ tcRefs τ sig := by
  simp only [List.Forall]
  repeat' apply And.intro
  all_goals
    first
      | with_reducible exact nullary_bufs_sub ..
      | with_reducible exact unary_bufs_sub ..
      | with_reducible exact binary_bufs_sub ..
      | with_reducible exact ternary_bufs_sub ..
      | with_reducible exact reshape_bufs_sub ..
      | exact nullary_bufs_sub ..
      | exact unary_bufs_sub ..
      | exact binary_bufs_sub ..

set_option maxRecDepth 8192 in
set_option maxHeartbeats 8000000 in
/-- The fold of the operations at the result buffer is `result` of the arguments' contents. -/
theorem result_eq (V : Valuation τ sig (Elt F)) :
    after ops V (main_v63 : DevRef τ sig)
      = result (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig)) := by
  after_results_simp <;> rfl

/-- No operation makes up a buffer's contents: each determines what it writes. -/
theorem ops_fresh : (ops : List (HloOp τ sig (Elt F))).Forall fun op => op.fresh = ∅ := by
  simp only [List.Forall]; repeat' constructor

set_option maxHeartbeats 4000000 in
/-- No operation writes an argument: each writes its own result buffer, and no result buffer is an argument. -/
theorem args_kept (V : Valuation τ sig (Elt F)) (r : Ref sig .tc)
    (hr : r ∈ ([main_arg0, main_arg1, main_arg2, main_arg3, main_arg4, main_arg5, main_arg6, main_arg7, main_arg8,
      main_arg9, main_arg10, main_arg11] : List (Ref sig .tc))) :
    after ops V (Proc.devRef .tc r) = V (Proc.devRef .tc r) :=
  after_of_forall_not_mem (b := Proc.devRef .tc r) _ _ (List.forall_iff_forall_mem.mp (by
    simp only [ops, List.Forall, nullary_writes, unary_writes, binary_writes, ternary_writes, reshape_writes,
      Finset.mem_singleton]
    repeat' apply And.intro
    all_goals exact devRef_ne_of_ne (by rintro rfl; exact absurd hr (by decide))))

/-- On every device, from any memory with zero counters: every weakly fair execution of @main terminates with the
    result buffer at `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v63).trans (result_eq _),
      (h c main_arg0).trans (args_kept _ main_arg0 (by decide)),
      (h c main_arg1).trans (args_kept _ main_arg1 (by decide)),
      (h c main_arg2).trans (args_kept _ main_arg2 (by decide)),
      (h c main_arg3).trans (args_kept _ main_arg3 (by decide)),
      (h c main_arg4).trans (args_kept _ main_arg4 (by decide)),
      (h c main_arg5).trans (args_kept _ main_arg5 (by decide)),
      (h c main_arg6).trans (args_kept _ main_arg6 (by decide)),
      (h c main_arg7).trans (args_kept _ main_arg7 (by decide)),
      (h c main_arg8).trans (args_kept _ main_arg8 (by decide)),
      (h c main_arg9).trans (args_kept _ main_arg9 (by decide)),
      (h c main_arg10).trans (args_kept _ main_arg10 (by decide)),
      (h c main_arg11).trans (args_kept _ main_arg11 (by decide))⟩)
    (run_seq scopedRefs_eq scopedSems_eq defs main (fun _ => ops) main_eq (fun _ => ops_sub) m ρ
      (fun _ => List.forall_iff_forall_mem.mp ops_fresh))

end Cert.ReferenceIdeal.Hand

end
-- ==== Proof.RefValue.lean ====
/-
  The reference's result read at an entry: at batch row r it is the prediction for that row — the logistic function
  (spelled 1 / (1 + exp (−·)) by the program) of the row's offset plus its score through the three rectified
  layers and the last product. The offset at row r is (bias + lin r) + ½ · total.
-/
import proofs.«161591_j37349035606580_1_alg».proof.Proof.RefRun
import proofs.«161591_j37349035606580_1_alg».proof.Proof.Mlp

noncomputable section

namespace Cert.ReferenceIdeal.Hand

open Cert.ReferenceIdeal Cert.ReferenceIdeal.Gen Idealize.ShloMosaic Idealize.ShloMosaic.ValueIdx Cert.DeepFM

/-- The first hidden layer at (r, q): the layer of row r of the embedding. -/
theorem hidden1_apply (E : FVec Ideal S16384x512 .f32) (W : FVec Ideal S512x2048 .f32) (b : FVec Ideal S2048 .f32)
    (r : Fin 16384) (q : Fin 2048) :
    hidden1 (F := Ideal) E W b (ix2 r q)
      = layer (fun a j => W (ix2 a j)) (fun j => b (ix1 j)) (fun a => E (ix2 r a)) q :=
  hostLayer_apply none E W b bcast_S2048_S1x2048_1 bcast_S1x2048_S16384x2048_0_1 bcast_S_S16384x2048 r q

/-- The second, of row r of the first. -/
theorem hidden2_apply (H : FVec Ideal S16384x2048 .f32) (W : FVec Ideal S2048x1024 .f32) (b : FVec Ideal S1024 .f32)
    (r : Fin 16384) (q : Fin 1024) :
    hidden2 (F := Ideal) H W b (ix2 r q)
      = layer (fun a j => W (ix2 a j)) (fun j => b (ix1 j)) (fun a => H (ix2 r a)) q :=
  hostLayer_apply none H W b bcast_S1024_S1x1024_1 bcast_S1x1024_S16384x1024_0_1 bcast_S_S16384x1024 r q

/-- The third, of row r of the second. -/
theorem hidden3_apply (H : FVec Ideal S16384x1024 .f32) (W : FVec Ideal S1024x512 .f32) (b : FVec Ideal S512 .f32)
    (r : Fin 16384) (q : Fin 512) :
    hidden3 (F := Ideal) H W b (ix2 r q)
      = layer (fun a j => W (ix2 a j)) (fun j => b (ix1 j)) (fun a => H (ix2 r a)) q :=
  hostLayer_apply none H W b bcast_S512_S1x512_1 bcast_S1x512_S16384x512_0_1 bcast_S_S16384x512 r q

/-- The output column at row r: the logistic function of the offset plus the last product and shift — the program's
    1 / (1 + exp (−x)) IS the logistic function over the extended reals. -/
theorem output_apply (fm : FVec Ideal S16384x1 .f32) (H : FVec Ideal S16384x512 .f32) (W : FVec Ideal S512x1 .f32)
    (b : FVec Ideal S1 .f32) (r : Fin 16384) (u : Fin 1) :
    output (F := Ideal) fm H W b (ix2 r u)
      = Ideal.logistic (fm (ix2 r u) + ((∑ k : Fin 512, H (ix2 r k) * W (ix2 k u)) + b (ix1 u))) := by
  have h1 : (broadcastInDim S16384x1 ![] bcast_S_S16384x1 (constant (F := Ideal) S_ .f32 0x3F800000#32)) (ix2 r u)
      = (1 : EReal) :=
    (broadcastInDim_scalar_apply bcast_S_S16384x1 _ (ix2 r u)).trans Ideal.ofBits_one_f32
  have h2 := Cert.PlainProduct.dotGeneral_apply (M := 16384) (K := 512) (N := 1) none H W r u
  have h3 := rowBias_apply (M := 16384) (N := 1) bcast_S1_S1x1_1 bcast_S1x1_S16384x1_0_1 b r u
  exact congrArg₂ Ideal.div h1
    (congrArg₂ (· + ·) h1 (congrArg Ideal.exp (congrArg Neg.neg (congrArg (fm (ix2 r u) + ·) (congrArg₂ (· + ·) h2 h3)))))

/-- The reference's result at row r is the prediction for row r. -/
theorem result_apply (x : FVec Ideal S16384x4 .f32) (bias : FVec Ideal S1 .f32) (fc : FVec Ideal S38279x1 .f32)
    (tab : FVec Ideal S38279x128 .f32) (W1 : FVec Ideal S512x2048 .f32) (b1 : FVec Ideal S2048 .f32)
    (W2 : FVec Ideal S2048x1024 .f32) (b2 : FVec Ideal S1024 .f32) (W3 : FVec Ideal S1024x512 .f32) (b3 : FVec Ideal S512 .f32)
    (W4 : FVec Ideal S512x1 .f32) (b4 : FVec Ideal S1 .f32) (r : Fin 16384) (u : Fin 1) :
    result (F := Ideal) x bias fc tab W1 b1 W2 b2 W3 b3 W4 b4 (ix2 r u)
      = predict (fun a j => W1 (ix2 a j)) (fun j => b1 (ix1 j)) (fun a j => W2 (ix2 a j)) (fun j => b2 (ix1 j))
          (fun a j => W3 (ix2 a j)) (fun j => b3 (ix1 j)) (fun k => W4 (ix2 k u)) (b4 (ix1 u))
          (offset bias (lin x fc) (total (emb x tab)) (ix2 r u)) (fun a => emb x tab (ix2 r a)) := by
  unfold result
  refine (output_apply _ _ W4 b4 r u).trans ?_
  unfold predict score
  refine congrArg (fun s => Ideal.logistic (offset bias (lin x fc) (total (emb x tab)) (ix2 r u) + (s + b4 (ix1 u))))
    (Finset.sum_congr rfl fun k _ => congrArg (· * W4 (ix2 k u)) ?_)
  refine (hidden3_apply _ W3 b3 r k).trans (layer_congr _ _ (fun a => ?_) k)
  refine (hidden2_apply _ W2 b2 r a).trans (layer_congr _ _ (fun a' => ?_) a)
  exact hidden1_apply _ W1 b1 r a'

/-- The offset column at row r: (bias + lin r) + ½ · total. -/
theorem offset_apply (bias : FVec Ideal S1 .f32) (l : FVec Ideal S16384 .f32) (t : FVec Ideal S_ .f32)
    (r : Fin 16384) (u : Fin 1) :
    offset (F := Ideal) bias l t (ix2 r u)
      = (bias (ix1 (0 : Fin 1)) + l (ix1 r)) + Ideal.ofBits .f32 0x3F000000#32 * t ix0 := by
  unfold offset
  refine (broadcastInDim_apply ![0] bcast_S16384_S16384x1_0 _ (ix2 r u) (ix1 r) fun a => ?_).trans ?_
  · match a with
    | ⟨0, _⟩ => show r.val = if (16384 : ℕ) = 1 then 0 else r.val; rw [if_neg (by decide)]
  have hb : ∀ v : S1.Idx → EReal, broadcastInDim S16384 ![0] bcast_S1_S16384_0 v (ix1 r) = v (ix1 (0 : Fin 1)) := fun v =>
    broadcastInDim_apply ![0] bcast_S1_S16384_0 v (ix1 r) (ix1 (0 : Fin 1)) fun a => by
      match a with
      | ⟨0, _⟩ => show (0 : ℕ) = if (1 : ℕ) = 1 then 0 else r.val; rw [if_pos rfl]
  exact congrArg₂ (· + ·) (congrArg (· + l (ix1 r)) (hb bias))
    ((hb _).trans (congrArg₂ (· * ·) (broadcastInDim_scalar_apply bcast_S_S1 _ (ix1 (0 : Fin 1)))
      (broadcastInDim_scalar_apply bcast_S_S1 t (ix1 (0 : Fin 1)))))

end Cert.ReferenceIdeal.Hand

end
-- ==== Proof.Bridge.lean ====
/-
  The kernel's result and the reference's are one function of the arguments.

  Both programs gather the same embedding rows and first-order weights and sum the same whole-batch correction (the
  same host operations on the same arguments), so those three values are carried whole. What differs is layout and
  spelling: the kernel adds bias, lin and ½·total as a vector and reshapes it to a column where the reference
  broadcasts; it narrows the embedding and the weights to a shorter float format, which is the identity over the
  extended reals; it lays each bias out as one row; it computes the batch in 16 tiles of 1024 rows; and it applies
  the logistic function where the reference spells 1 / (1 + exp (−x)). Entry by entry both are the prediction for
  the entry's batch row.
-/
import proofs.«161591_j37349035606580_1_alg».proof.Proof.KernelResult
import proofs.«161591_j37349035606580_1_alg».proof.Proof.RefValue

noncomputable section

namespace Cert.Bridge

open Idealize.ShloMosaic Idealize.ShloMosaic.ValueIdx Cert.DeepFM

/-! ## The shared host values -/

section Shared

variable {F : FTy → Type} [FloatOps F]

/-- The two programs gather the same embedding rows. -/
theorem emb_eq (x : FVec F Cert.ReferenceIdeal.S16384x4 .f32) (tab : FVec F Cert.ReferenceIdeal.S38279x128 .f32) :
    Cert.KernelIdeal.Hand.emb x tab = Cert.ReferenceIdeal.Hand.emb x tab := rfl

/-- … the same first-order term … -/
theorem lin_eq (x : FVec F Cert.ReferenceIdeal.S16384x4 .f32) (fc : FVec F Cert.ReferenceIdeal.S38279x1 .f32) :
    Cert.KernelIdeal.Hand.lin x fc = Cert.ReferenceIdeal.Hand.lin x fc := rfl

/-- … and the same whole-batch correction. -/
theorem total_eq (E : FVec F Cert.ReferenceIdeal.S16384x512 .f32) :
    Cert.KernelIdeal.Hand.total E = Cert.ReferenceIdeal.Hand.total E := rfl

end Shared

/-! ## The offset column -/

/-- The kernel's offset column at row r: (bias + lin r) + ½ · total. -/
theorem offsetK_apply (bias : FVec Ideal Cert.KernelIdeal.S1 .f32) (l : FVec Ideal Cert.KernelIdeal.S16384 .f32)
    (t : FVec Ideal Cert.KernelIdeal.S_ .f32) (r : Fin 16384) (u : Fin 1) :
    Cert.KernelIdeal.Hand.offset (F := Ideal) bias l t (ix2 r u)
      = (bias (ix1 (0 : Fin 1)) + l (ix1 r)) + Ideal.ofBits .f32 0x3F000000#32 * t ix0 := by
  have hu : u.val = 0 := by omega
  unfold Cert.KernelIdeal.Hand.offset
  refine (shapeCast_apply _ Cert.KernelIdeal.Gen.shapeCasts_S16384_S16384x1 (ix2 r u) (ix1 r) ?_).trans ?_
  · rw [Shape.rowMajor_val_one, Shape.rowMajor_val_two]
    show r.val = r.val * 1 + u.val
    omega
  have hs : shapeCast Cert.KernelIdeal.S_ bias Cert.KernelIdeal.Gen.shapeCasts_S1_S_ ix0 = bias (ix1 (0 : Fin 1)) :=
    shapeCast_apply bias Cert.KernelIdeal.Gen.shapeCasts_S1_S_ ix0 (ix1 (0 : Fin 1)) (by
      rw [Shape.rowMajor_val_one]
      have h := (Cert.KernelIdeal.S_.rowMajor ix0).isLt
      change _ < 1 at h
      show (0 : ℕ) = _
      omega)
  exact congrArg₂ (· + ·)
    (congrArg (· + l (ix1 r)) ((broadcastInDim_scalar_apply Cert.KernelIdeal.Gen.bcast_S_S16384 _ (ix1 r)).trans hs))
    (broadcastInDim_scalar_apply Cert.KernelIdeal.Gen.bcast_S_S16384 _ (ix1 r))

/-! ## The two results -/

/-- The kernel's result is the reference's. -/
theorem kresult_eq_result (x : FVec Ideal Cert.ReferenceIdeal.S16384x4 .f32) (bias : FVec Ideal Cert.ReferenceIdeal.S1 .f32)
    (fc : FVec Ideal Cert.ReferenceIdeal.S38279x1 .f32) (tab : FVec Ideal Cert.ReferenceIdeal.S38279x128 .f32)
    (W1 : FVec Ideal Cert.ReferenceIdeal.S512x2048 .f32) (b1 : FVec Ideal Cert.ReferenceIdeal.S2048 .f32)
    (W2 : FVec Ideal Cert.ReferenceIdeal.S2048x1024 .f32) (b2 : FVec Ideal Cert.ReferenceIdeal.S1024 .f32)
    (W3 : FVec Ideal Cert.ReferenceIdeal.S1024x512 .f32) (b3 : FVec Ideal Cert.ReferenceIdeal.S512 .f32)
    (W4 : FVec Ideal Cert.ReferenceIdeal.S512x1 .f32) (b4 : FVec Ideal Cert.ReferenceIdeal.S1 .f32) :
    Cert.KernelIdeal.Hand.kresult x bias fc tab W1 b1 W2 b2 W3 b3 W4 b4
      = Cert.ReferenceIdeal.Hand.result (F := Ideal) x bias fc tab W1 b1 W2 b2 W3 b3 W4 b4 := by
  funext i
  obtain ⟨r, u, rfl⟩ : ∃ (r : Fin 16384) (u : Fin 1), i = ix2 r u := ⟨i 0, i 1, eq_ix2 i⟩
  obtain rfl : u = 0 := Subsingleton.elim _ _
  rw [Cert.ReferenceIdeal.Hand.result_apply]
  unfold Cert.KernelIdeal.Hand.kresult Cert.KernelIdeal.Hand.G
  refine Cert.KernelIdeal.Hand.predict_congr (fun a j => rfl)
    (fun j => shapeCast_a_1a_apply b1 Cert.KernelIdeal.Gen.shapeCasts_S2048_S1x2048 (0 : Fin 1) j)
    (fun a j => rfl)
    (fun j => shapeCast_a_1a_apply b2 Cert.KernelIdeal.Gen.shapeCasts_S1024_S1x1024 (0 : Fin 1) j)
    (fun a j => rfl)
    (fun j => shapeCast_a_1a_apply b3 Cert.KernelIdeal.Gen.shapeCasts_S512_S1x512 (0 : Fin 1) j)
    (fun k => rfl)
    (shapeCast_a_1a_apply b4 Cert.KernelIdeal.Gen.shapeCasts_S1_S1x1 (0 : Fin 1) (0 : Fin 1))
    ?_ (fun a => ?_)
  · rw [offsetK_apply, Cert.ReferenceIdeal.Hand.offset_apply, lin_eq, emb_eq, total_eq]
  · show Cert.KernelIdeal.Hand.emb x tab (ix2 r a) = Cert.ReferenceIdeal.Hand.emb x tab (ix2 r a)
    rw [emb_eq]

/-! ## The kernel's run with the reference's function in its post -/

open Idealize.ShloMosaic.TcCoe Idealize.SL.Sem in
/-- Every weakly fair execution of the kernel's program terminates with its result array at the REFERENCE's
    function of the arguments, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ fun r => ∀ c : Dev Cert.KernelIdeal.nD,
      r.2.mem ((c.tc : Thread Cert.KernelIdeal.nD Cert.KernelIdeal.τ).loc Cert.KernelIdeal.main_v46)
        = Cert.ReferenceIdeal.Hand.result (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8))
            (m ((c.tc : Thread Cert.KernelIdeal.nD Cert.KernelIdeal.τ).loc Cert.KernelIdeal.main_arg9))
            (m ((c.tc : Thread Cert.KernelIdeal.nD Cert.KernelIdeal.τ).loc Cert.KernelIdeal.main_arg10))
            (m ((c.tc : Thread Cert.KernelIdeal.nD Cert.KernelIdeal.τ).loc Cert.KernelIdeal.main_arg11))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11) :=
  (θ_run (Cert.KernelIdeal.defs (F := Ideal)) _ _).mono
    (fun _ h c => ⟨(h c).1.trans (kresult_eq_result _ _ _ _ _ _ _ _ _ _ _ _), (h c).2⟩)
    (Cert.KernelIdeal.Hand.run m ρ)

end Cert.Bridge

end
-- ==== Proof.lean ====
/-
  The certificate of the fused four-layer perceptron kernel against its jnp model.

  The three frames: the kernel's two programs by their generated frame certificates; the reference's by its run
  read back, the result dropped. The idealization rewrote nothing, so `preserves` asks nothing. Over the extended
  reals both idealized programs end with the result array at ONE function of the arguments — at batch row r the
  logistic function of (bias + lin r + ½·total) plus the row's score through three rectified dense layers and a last
  product —: the kernel computes it in 16 tiles of 1024 rows from arrays the host lays out before the region, the
  reference over the whole batch.
-/
import proofs.«161591_j37349035606580_1_alg».proof.Defs
import proofs.«161591_j37349035606580_1_alg».proof.Proof.Gen.Kernel
import proofs.«161591_j37349035606580_1_alg».proof.Proof.Gen.Kernel.Frame
import proofs.«161591_j37349035606580_1_alg».proof.Proof.Gen.KernelIdeal
import proofs.«161591_j37349035606580_1_alg».proof.Proof.Gen.KernelIdeal.Frame
import proofs.«161591_j37349035606580_1_alg».proof.Proof.Gen.ReferenceIdeal
import proofs.«161591_j37349035606580_1_alg».proof.Proof.Gen.Pre_finite_inputs
import proofs.«161591_j37349035606580_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- From memories agreeing on the arguments both idealized programs end with the result at the same function of
    them: the kernel's run carries the reference's function in its post, and the reference's run is read at the
    kernel's arguments. -/
theorem algebraic : Cert.algebraic_KernelIdeal_ReferenceIdeal := by
  intro m ρ m' ρ' _ hagree
  refine ⟨_, Cert.Bridge.kernel_run m ρ, ?_⟩
  refine (θ_run Cert.ReferenceIdeal.defs _ _).mono (fun _ h c => ⟨(h c).1.trans ?_, (h c).2⟩)
    (Cert.ReferenceIdeal.Hand.run (F := Ideal) m' ρ')
  obtain ⟨h0, h1, h2, h3, h4, h5, h6, h7, h8, h9, h10, h11⟩ := hagree c
  rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
